-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S1200000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S1200000 32 := broadcastInDim S1200000 ![] bcast_S_S1200000 main_c_6
  let main_v20 : IVec S1200000 1 := cmpi .sge main_arg1 main_v19
  let main_c_7 : IVec S_ 32 := constantI S_ 32 100000#32
  let main_v21 : IVec S1200000 32 := broadcastInDim S1200000 ![] bcast_S_S1200000 main_c_7
  let main_v22 : IVec S1200000 1 := cmpi .slt main_arg1 main_v21
  let main_v23 : IVec S1200000 1 := andi main_v20 main_v22
  let main_c_8 : IVec S_ 1 := constantI S_ 1 1#1
  let main_v24 : IVec S_ 1 := (fun x v => Host.reduce IntOp.andi x v reducesTo_S1200000_S_d0 h_S_) main_v23 main_c_8
  let main_v25 : IVec S_ 1 := andi main_v18 main_v24
  main_v25

def fn {F : FTy → Type} [FloatOps F] (main_arg0 : FVec F S100000x64 .f32) (main_arg1 : IVec S1200000 32) (main_arg2 : IVec S1200000 32) (main_arg3 : FVec F S1200000 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000 .f32 := Host.absf main_arg3
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_v13 main_v16
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S1x64 : Shape := ⟨2, ![1, 64]⟩
abbrev S2000x64 : Shape := ⟨2, ![2000, 64]⟩
abbrev S1200000x1 : Shape := ⟨2, ![1200000, 1]⟩
abbrev S320x1 : Shape := ⟨2, ![320, 1]⟩
abbrev S320x64 : Shape := ⟨2, ![320, 64]⟩
abbrev S320x2000 : Shape := ⟨2, ![320, 2000]⟩

abbrev nBuf : Space → Nat
  | .hbm => 13
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S1200000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S1x64, .f32⟩
  | .hbm, ⟨8, _⟩ => ⟨S100000x64, .bf16⟩
  | .hbm, ⟨9, _⟩ => ⟨S1200000x1, .i32⟩
  | .hbm, ⟨10, _⟩ => ⟨S1200000x1, .i32⟩
  | .hbm, ⟨11, _⟩ => ⟨S1200000x1, .f32⟩
  | .hbm, ⟨12, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S2000x64, .bf16⟩
  | .local _ .vmem, ⟨5, _⟩ => ⟨S2000x64, .bf16⟩
  | .local _ .vmem, ⟨6, _⟩ => ⟨S320x1, .i32⟩
  | .local _ .vmem, ⟨7, _⟩ => ⟨S320x1, .i32⟩
  | .local _ .vmem, ⟨8, _⟩ => ⟨S320x1, .i32⟩
  | .local _ .vmem, ⟨9, _⟩ => ⟨S320x1, .i32⟩
  | .local _ .vmem, ⟨10, _⟩ => ⟨S320x1, .f32⟩
  | .local _ .vmem, ⟨11, _⟩ => ⟨S320x1, .f32⟩
  | .local _ .vmem, ⟨12, _⟩ => ⟨S100000x64, .bf16⟩
  | .local _ .vmem, ⟨13, _⟩ => ⟨S100000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![3750], ![false]⟩

@[reducible] def k1_t1_loop : Scf.Loop 32 :=
  let c0_i32_6 : BitVec 32 := 0#32
  let c50_i32 : BitVec 32 := 50#32
  let v10 : BitVec 32 := Scalar.addi c0_i32_6 c50_i32
  let c1_i32 : BitVec 32 := 1#32
  ⟨c0_i32_6, v10, c1_i32⟩
def k1_mult1 (k1_t1 : Fin k1_t1_loop.trips) : BitVec 32 :=
  let c0_i32_6 : BitVec 32 := 0#32
  let c1_i32 : BitVec 32 := 1#32
  let arg6 : BitVec 32 := Scf.iv c0_i32_6 c1_i32 k1_t1
  let c2000_i32 : BitVec 32 := 2000#32
  let v16 : BitVec 32 := Scalar.muli arg6 c2000_i32
  v16
def k1_off1 (k1_t1 : Fin k1_t1_loop.trips) : Fin 2 → Nat :=
  let c0_i32_6 : BitVec 32 := 0#32
  let c1_i32 : BitVec 32 := 1#32
  let arg6 : BitVec 32 := Scf.iv c0_i32_6 c1_i32 k1_t1
  let c2000_i32 : BitVec 32 := 2000#32
  let v16 : BitVec 32 := Scalar.muli arg6 c2000_i32
  let v17 : BitVec 32 := v16
  let v18 : Index := Scalar.indexCast v17
  let c0_12 : Index := 0#32
  ![v18.toNat, 0]
@[reducible] def k1_t2_loop : Scf.Loop 32 :=
  let c0_i32_8 : BitVec 32 := 0#32
  let c50_i32_9 : BitVec 32 := 50#32
  let v15 : BitVec 32 := Scalar.addi c0_i32_8 c50_i32_9
  let c1_i32_10 : BitVec 32 := 1#32
  ⟨c0_i32_8, v15, c1_i32_10⟩
def k1_mult2 (k1_t2 : Fin k1_t2_loop.trips) : BitVec 32 :=
  let c0_i32_13 : BitVec 32 := 0#32
  let c0_i32_8 : BitVec 32 := 0#32
  let c1_i32_10 : BitVec 32 := 1#32
  let arg6 : BitVec 32 := Scf.iv c0_i32_8 c1_i32_10 k1_t2
  let c1_i32_12 : BitVec 32 := 1#32
  let v16 : BitVec 32 := Scalar.muli arg6 c1_i32_12
  let v17 : BitVec 32 := Scalar.addi c0_i32_13 v16
  let c2000_i32 : BitVec 32 := 2000#32
  let v18 : BitVec 32 := Scalar.muli v17 c2000_i32
  v18
def k1_off2 (k1_t2 : Fin k1_t2_loop.trips) : Fin 2 → Nat :=
  let c0_i32_13 : BitVec 32 := 0#32
  let c0_i32_8 : BitVec 32 := 0#32
  let c1_i32_10 : BitVec 32 := 1#32
  let arg6 : BitVec 32 := Scf.iv c0_i32_8 c1_i32_10 k1_t2
  let c1_i32_12 : BitVec 32 := 1#32
  let v16 : BitVec 32 := Scalar.muli arg6 c1_i32_12
  let v17 : BitVec 32 := Scalar.addi c0_i32_13 v16
  let c2000_i32 : BitVec 32 := 2000#32
  let v18 : BitVec 32 := Scalar.muli v17 c2000_i32
  let v19 : BitVec 32 := v18
  let v29 : Index := Scalar.indexCast v19
  let c0_15 : Index := 0#32
  ![v29.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S320x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S320x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S320x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S100000x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100000x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  transposes_S64x64_S64x64_1_0 : S64x64.Transposes [1, 0] S64x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  packedbf16_S2000x64_S2000x64_0_0 : (Rect.unit (s := S2000x64) ![0, 0] S2000x64.size inb_S2000x64_S2000x64_0_0).PackedRows (EltTy.packing .bf16)
  shapeCasts_S1200000_S1200000x1 : S1200000.ShapeCasts S1200000x1
  inb_S100000x64_S100000x64_0_0 : ∀ a, (![0, 0] : Fin 2 → Nat) a + S100000x64.size a ≤ S100000x64.size a
  h_S100000x64 : 0 < S100000x64.numel
  inb_S320x1_S320x1_0_0 : ∀ a, (![0, 0] : Fin 2 → Nat) a + S320x1.size a ≤ S320x1.size a
  h_S320x1 : 0 < S320x1.numel
  shapeCasts_S320x1_S320x1 : S320x1.ShapeCasts S320x1
  shapeCasts_S2000x64_S2000x64 : S2000x64.ShapeCasts S2000x64
  iota_S320x2000_d1_w32 : S320x2000.Iotas .tc 32 [1]
  broadcasts_S320x1_S320x2000 : S320x1.Broadcasts S320x2000
  natLt_1_32 : 1 < 32
  broadcasts_S320x1_S320x64 : S320x1.Broadcasts S320x64
  dot_S2000x64_S64x64_S2000x64_1_0_0_1_n_n_wf : DotDims.WF S2000x64 S64x64 S2000x64 [1] [0] [0] [1] [] []
  dot_S320x2000_S2000x64_S320x64_1_0_0_1_n_n_wf : DotDims.WF S320x2000 S2000x64 S320x64 [1] [0] [0] [1] [] []
  dot_S320x2000_S320x64_S2000x64_0_0_1_1_n_n_wf : DotDims.WF S320x2000 S320x64 S2000x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .bf16 = 32 ∨ (Rect.block (s := S100000x64) S2000x64.size (cc0_transform_3 i) (hinb0_3 i)).WholeWords (EltTy.packing .bf16)
  hrank1 : 0 < grid1.rank
  k1_t1_ok : k1_t1_loop.OK
  k1_mult1_dvd : ∀ k1_t1 : Fin k1_t1_loop.trips, 2000 ∣ (k1_mult1 k1_t1).toNat
  k1_off1_inb : ∀ k1_t1 : Fin k1_t1_loop.trips, ∀ a, (k1_off1 k1_t1) a + S2000x64.size a ≤ S100000x64.size a
  k1_t2_ok : k1_t2_loop.OK
  k1_mult2_dvd : ∀ k1_t2 : Fin k1_t2_loop.trips, 2000 ∣ (k1_mult2 k1_t2).toNat
  k1_off2_inb : ∀ k1_t2 : Fin k1_t2_loop.trips, ∀ a, (k1_off2 k1_t2) a + S2000x64.size a ≤ S100000x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S320x1.size a ≤ S1200000x1.size a
  hwx1_0 : ∀ i : grid1.Coords, EltTy.bits .i32 = 32 ∨ (Rect.block (s := S1200000x1) S320x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S320x1.size a ≤ S1200000x1.size a
  hwx1_1 : ∀ i : grid1.Coords, EltTy.bits .i32 = 32 ∨ (Rect.block (s := S1200000x1) S320x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S320x1.size a ≤ S1200000x1.size a
  hwx1_2 : ∀ i : grid1.Coords, EltTy.bits .f32 = 32 ∨ (Rect.block (s := S1200000x1) S320x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100000x64.size a ≤ S100000x64.size a
  hwx1_3 : ∀ i : grid1.Coords, EltTy.bits .bf16 = 32 ∨ (Rect.block (s := S100000x64) S100000x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100000x64.size a ≤ S100000x64.size a
  hwx1_4 : ∀ i : grid1.Coords, EltTy.bits .f32 = 32 ∨ (Rect.block (s := S100000x64) S100000x64.size (cc1_transform_4 i) (hinb1_4 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S320x2000_S2000x64_S320x64_1_0_0_1_n_n : DotDims S320x2000 S2000x64 S320x64 where
  lhsContracting := [1]
  rhsContracting := [0]
  lhsNonContracting := [0]
  rhsNonContracting := [1]
  lhsBatch := []
  rhsBatch := []
  wf := dot_S320x2000_S2000x64_S320x64_1_0_0_1_n_n_wf
def dot_S320x2000_S320x64_S2000x64_0_0_1_1_n_n : DotDims S320x2000 S320x64 S2000x64 where
  lhsContracting := [0]
  rhsContracting := [0]
  lhsNonContracting := [1]
  rhsNonContracting := [1]
  lhsBatch := []
  rhsBatch := []
  wf := dot_S320x2000_S320x64_S2000x64_0_0_1_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S320x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S320x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S320x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S100000x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S100000x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1200000x1 : Shape := ⟨2, ![1200000, 1]⟩
abbrev S1200000x64 : Shape := ⟨2, ![1200000, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S1200000, .f32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S1200000x1, .f32⟩
  | .hbm, ⟨20, _⟩ => ⟨S1200000x64, .f32⟩
  | .hbm, ⟨21, _⟩ => ⟨S1200000x64, .f32⟩
  | .hbm, ⟨22, _⟩ => ⟨S_, .f32⟩
  | .hbm, ⟨23, _⟩ => ⟨S100000x64, .f32⟩
  | .hbm, ⟨24, _⟩ => ⟨S1200000x1, .i32⟩
  | .hbm, ⟨25, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  dot_S100000x64_S64x64_S100000x64_1_1_0_0_n_n_wf : DotDims.WF S100000x64 S64x64 S100000x64 [1] [1] [0] [0] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def dot_S100000x64_S64x64_S100000x64_1_1_0_0_n_n : DotDims S100000x64 S64x64 S100000x64 where
  lhsContracting := [1]
  rhsContracting := [1]
  lhsNonContracting := [0]
  rhsNonContracting := [0]
  lhsBatch := []
  rhsBatch := []
  wf := dot_S100000x64_S64x64_S100000x64_1_1_0_0_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.LibMatmulPlain.lean ====
import Idealize.ShloMosaic.PureOps.Ideal
import Idealize.ShloMosaic.PureOps.Ideal.Laws
import Idealize.ShloMosaic.Lib.ValueIdx
import Mathlib.Algebra.BigOperators.Group.Finset.Basic

/-!
# The plain matrix product of the matrix unit, read at an index

For the dimension numbers of an M×K by K×N product (the left operand contracted on its axis 1, the right on its
axis 0, no batch axes), the matrix unit's product into an accumulator is, at (p, n), the accumulator there plus
the sum over q of lhs(p, q) · rhs(q, n) on the extended reals.
-/

noncomputable section

open scoped BigOperators

namespace Cert.MatmulPlain

open Idealize.ShloMosaic Idealize.ShloMosaic.ValueIdx

variable {M K N : Nat} (D : DotDims ⟨2, ![M, K]⟩ ⟨2, ![K, N]⟩ ⟨2, ![M, N]⟩)

/-- The one contracted extent is the left operand's extent on its axis 1. -/
private theorem contr_size_plain (hlc : D.lhsContracting = [1]) (h0 : 0 < D.contr.rank) :
    D.contr.size ⟨0, h0⟩ = K := by
  have hp : 0 < D.lhsContracting.length := by rw [hlc]; exact Nat.one_pos
  have hsz := D.size_contr 0 hp
  have hK : ∀ (l : List (Fin 2)) (h : 0 < l.length), l = [1] → (⟨2, ![M, K]⟩ : Shape).size l[0] = K := by
    intro l h e; subst e; rfl
  exact hsz.trans (hK _ hp hlc)

/-- On the left operand's axis 0, its one non-contracting axis and the result's first, the left index reads the
    result index's first coordinate. -/
theorem lhsIdx_val_zero (hln : D.lhsNonContracting = [0]) (hlb : D.lhsBatch = [])
    (j : (⟨2, ![M, N]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln])

/-- On the left operand's axis 1, the contracted one, the left index reads the contraction position's coordinate. -/
theorem lhsIdx_val_one (hlc : D.lhsContracting = [1]) (j : (⟨2, ![M, N]⟩ : Shape).Idx) (k : D.contr.Idx) :
    (D.lhsIdx j k (1 : Fin 2)).val = (k ⟨0, by rw [D.rank_contr, hlc]; exact Nat.one_pos⟩).val :=
  D.lhsIdx_val_of_single hlc j k

/-- On the right operand's axis 0, the contracted one, the right index reads the contraction position's coordinate. -/
theorem rhsIdx_val_zero (hrc : D.rhsContracting = [0]) (j : (⟨2, ![M, N]⟩ : Shape).Idx) (k : D.contr.Idx) :
    (D.rhsIdx j k (0 : Fin 2)).val = (k ⟨0, by rw [D.rank_contr, ← D.length_contracting, hrc]; exact Nat.one_pos⟩).val :=
  D.rhsIdx_val_of_single hrc j k

/-- On the right operand's axis 1, its one non-contracting axis and the result's second (after the left operand's
    one), the right index reads the result index's second coordinate. -/
theorem rhsIdx_val_one (hln : D.lhsNonContracting = [0]) (hrn : D.rhsNonContracting = [1]) (hlb : D.lhsBatch = [])
    (hrb : D.rhsBatch = []) (j : (⟨2, ![M, N]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln, hrn])

/-- THE PRODUCT READ AT (p, n): the accumulator's entry plus the sum over the contracted position q of
    lhs(p, q) · rhs(q, n). -/
theorem matmul_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul D prec lhs rhs acc (ix2 p n) = acc (ix2 p n) + ∑ q : Fin K, lhs (ix2 p q) * rhs (ix2 q n) := by
  have hr : D.contr.rank = 1 := by rw [DotDims.rank_contr, hlc]; rfl
  have hs : D.contr.size ⟨0, by omega⟩ = K := contr_size_plain D hlc (by omega)
  rw [Ideal.matmul_apply]
  congr 1
  -- the contraction index set is its one coordinate's range: re-index the sum through that bijection
  rw [← Equiv.sum_comp (contrEquiv1 D K hr hs).symm]
  refine Finset.sum_congr rfl fun q _ => ?_
  have hl : D.lhsIdx (ix2 p n) ((contrEquiv1 D K hr hs).symm q) = ix2 p q := by
    funext a
    match a with
    | ⟨0, _⟩ => exact Fin.ext (lhsIdx_val_zero D hln hlb (ix2 p n) _)
    | ⟨1, _⟩ => exact Fin.ext ((lhsIdx_val_one D hlc (ix2 p n) _).trans (contrEquiv1_symm_val D K hr hs q))
  have hrr : D.rhsIdx (ix2 p n) ((contrEquiv1 D K hr hs).symm q) = ix2 q n := by
    funext a
    match a with
    | ⟨0, _⟩ => exact Fin.ext ((rhsIdx_val_zero D hrc (ix2 p n) _).trans (contrEquiv1_symm_val D K hr hs q))
    | ⟨1, _⟩ => exact Fin.ext (rhsIdx_val_one D hln hrn hlb hrb (ix2 p n) _)
  rw [hl, hrr]

end Cert.MatmulPlain

end
-- ==== Proof.Spec.lean ====
import Idealize.ShloMosaic.PureOps.Ideal
import Idealize.ShloMosaic.PureOps.Ideal.Laws
import Idealize.ShloMosaic.Lib.ValueIdx
import Idealize.ShloMosaic.Lib.StableHlo.Predicate
import Mathlib.Algebra.BigOperators.Group.Finset.Basic

/-!
# Edge-weighted aggregation of projected node features: the function both programs compute

For node features x (100000 rows of 64), a weight matrix W (64 by 64) and a bias b (64), the projected row of
node n is h(n, o) = (sum over d of x(n, d) * W(o, d)) + b(o). For 1200000 edges e with a source node, a
destination node and a weight, the message of e is the projected row of its source times its weight, and the
result at node n is the sum of the messages of the edges whose destination is n:

  out(n, o) = sum over { e | dst e = n } of h(src e, o) * w e.

An edge whose destination is no node (negative, or at least 100000) contributes nowhere. Everything is stated on
the extended reals, index by index, over the literal extents.
-/

noncomputable section

open scoped BigOperators

namespace Cert.Agg

open Idealize.ShloMosaic Idealize.ShloMosaic.ValueIdx
open Idealize.ShloMosaic.StableHlo.Predicate (ixP)

/-- The node-feature table's shape, and the projected table's. -/
abbrev SX : Shape := ⟨2, ![100000, 64]⟩
/-- A flat per-edge array's shape. -/
abbrev SE : Shape := ⟨1, ![1200000]⟩
/-- A per-edge column's shape. -/
abbrev SC : Shape := ⟨2, ![1200000, 1]⟩
/-- The weight matrix's shape. -/
abbrev SW : Shape := ⟨2, ![64, 64]⟩
/-- The bias's shape. -/
abbrev SB : Shape := ⟨1, ![64]⟩

/-- The projected feature of node n at output channel o: row n of x against row o of W, plus the bias. -/
def proj (x : SX.Idx → EReal) (W : SW.Idx → EReal) (b : SB.Idx → EReal) (n : Fin 100000) (o : Fin 64) : EReal :=
  (∑ d : Fin 64, x (ix2 n d) * W (ix2 o d)) + b (ix1 o)

/-- The projected table as an array. -/
def projArr (x : SX.Idx → EReal) (W : SW.Idx → EReal) (b : SB.Idx → EReal) : SX.Idx → EReal :=
  fun i => proj x W b ⟨(i 0).val, (i 0).isLt⟩ ⟨(i 1).val, (i 1).isLt⟩

theorem projArr_apply (x : SX.Idx → EReal) (W : SW.Idx → EReal) (b : SB.Idx → EReal) (n : Fin 100000) (o : Fin 64) :
    projArr x W b (ix2 n o) = proj x W b n o := rfl

/-- The table row a 32-bit start index addresses: read signed, clamped into the table. For an index in
    [0, 100000) this is the index itself. -/
def rowOf (s : BitVec 32) : Fin 100000 := ⟨min s.toInt.toNat 99999, by omega⟩

theorem rowOf_val_of_range (s : BitVec 32) (h0 : 0 ≤ s.toInt) (h1 : s.toInt < 100000) :
    ((rowOf s).val : ℤ) = s.toInt := by
  unfold rowOf
  show ((min s.toInt.toNat 99999 : Nat) : ℤ) = s.toInt
  omega

/-- The aggregate over per-edge COLUMNS (shape [1200000, 1]) and a table h of rows: at (n, o) the sum, over
    the edges whose destination read signed is n, of h at the source's row times the edge's weight. -/
def aggCol (h : SX.Idx → EReal) (srcC dstC : SC.Idx → BitVec 32) (wC : SC.Idx → EReal) (n : Fin 100000) (o : Fin 64) : EReal :=
  ∑ e ∈ Finset.univ.filter (fun e : Fin 1200000 => (dstC (ixP e)).toInt = (n.val : ℤ)),
    h (ix2 (rowOf (srcC (ixP e))) o) * wC (ixP e)

/-- The same as an array. -/
def aggColArr (h : SX.Idx → EReal) (srcC dstC : SC.Idx → BitVec 32) (wC : SC.Idx → EReal) : SX.Idx → EReal :=
  fun i => aggCol h srcC dstC wC ⟨(i 0).val, (i 0).isLt⟩ ⟨(i 1).val, (i 1).isLt⟩

theorem aggColArr_apply (h : SX.Idx → EReal) (srcC dstC : SC.Idx → BitVec 32) (wC : SC.Idx → EReal) (n : Fin 100000) (o : Fin 64) :
    aggColArr h srcC dstC wC (ix2 n o) = aggCol h srcC dstC wC n o := rfl

/-- THE RESULT both programs compute, from the six argument arrays (flat per-edge arrays): at (n, o) the sum, over
    the edges whose destination is n, of the projected feature of the edge's source at o times the edge's weight. -/
def agg (x : SX.Idx → EReal) (src dst : SE.Idx → BitVec 32) (w : SE.Idx → EReal) (W : SW.Idx → EReal) (b : SB.Idx → EReal)
    (n : Fin 100000) (o : Fin 64) : EReal :=
  ∑ e ∈ Finset.univ.filter (fun e : Fin 1200000 => (dst (ix1 e)).toInt = (n.val : ℤ)),
    proj x W b (rowOf (src (ix1 e))) o * w (ix1 e)

/-- The result as an array. -/
def G (x : SX.Idx → EReal) (src dst : SE.Idx → BitVec 32) (w : SE.Idx → EReal) (W : SW.Idx → EReal) (b : SB.Idx → EReal) :
    SX.Idx → EReal :=
  fun i => agg x src dst w W b ⟨(i 0).val, (i 0).isLt⟩ ⟨(i 1).val, (i 1).isLt⟩

theorem G_apply (x : SX.Idx → EReal) (src dst : SE.Idx → BitVec 32) (w : SE.Idx → EReal) (W : SW.Idx → EReal) (b : SB.Idx → EReal)
    (n : Fin 100000) (o : Fin 64) : G x src dst w W b (ix2 n o) = agg x src dst w W b n o := rfl

/-- Over columns that are the flat arrays re-laid and a table that is the projected one, the column form is the
    result. -/
theorem aggColArr_eq_G (x : SX.Idx → EReal) (src dst : SE.Idx → BitVec 32) (w : SE.Idx → EReal) (W : SW.Idx → EReal) (b : SB.Idx → EReal)
    (h : SX.Idx → EReal) (srcC dstC : SC.Idx → BitVec 32) (wC : SC.Idx → EReal)
    (hh : h = projArr x W b) (hs : ∀ e : Fin 1200000, srcC (ixP e) = src (ix1 e))
    (hd : ∀ e : Fin 1200000, dstC (ixP e) = dst (ix1 e)) (hw : ∀ e : Fin 1200000, wC (ixP e) = w (ix1 e)) :
    aggColArr h srcC dstC wC = G x src dst w W b := by
  subst hh
  funext i
  obtain ⟨n, o, rfl⟩ : ∃ (n : Fin 100000) (o : Fin 64), i = ix2 n o := ⟨i 0, i 1, eq_ix2 i⟩
  rw [aggColArr_apply, G_apply]
  unfold aggCol agg
  simp only [hs, hd, hw, projArr_apply]

end Cert.Agg

end
-- ==== Proof.Payloads.lean ====
import proofs.«406246_j3513283248909_1_alg».proof.Proof.Gen.KernelIdeal.Skeleton
import proofs.«406246_j3513283248909_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

/-!
# The second region's two loop bodies, read at an index

Both loops walk the 100000 node rows in 50 chunks of 2000. For a block of 320 edges:

* the gathering loop adds to its carried [320, 64] value, at trip k, the product of the 320 by 2000 indicator
  matrix "node 2000 k + q is edge e's source" with chunk k of the projected table;
* the scattering loop adds to chunk k of the output, at trip k, the product of the TRANSPOSED indicator matrix
  "node 2000 k + p is edge e's destination" with the 320 messages (the gathered rows times the weights).

An indicator is the conversion to a float of the widened one-bit comparison of two 32-bit words: 1 where they are
equal, 0 elsewhere.
-/

set_option maxRecDepth 16384

noncomputable section

open scoped BigOperators

/-! ## The product with the left operand contracted on its axis 0, read at an index

For the dimension numbers of a K×M by K×N product into M×N (both operands contracted on their axis 0, no batch
axes), the matrix unit's product into an accumulator is, at (p, n), the accumulator there plus the sum over q of
lhs(q, p) · rhs(q, n) on the extended reals: the transposed left operand against the right one. -/

namespace Cert.MatmulLhsT

open Idealize.ShloMosaic Idealize.ShloMosaic.ValueIdx

variable {M K N : Nat} (D : DotDims ⟨2, ![K, M]⟩ ⟨2, ![K, N]⟩ ⟨2, ![M, N]⟩)

/-- The one contracted extent is the left operand's extent on its axis 0. -/
private theorem contr_size_lhsT (hlc : D.lhsContracting = [0]) (h0 : 0 < D.contr.rank) :
    D.contr.size ⟨0, h0⟩ = K := by
  have hp : 0 < D.lhsContracting.length := by rw [hlc]; exact Nat.one_pos
  have hsz := D.size_contr 0 hp
  have hK : ∀ (l : List (Fin 2)) (h : 0 < l.length), l = [0] → (⟨2, ![K, M]⟩ : Shape).size l[0] = K := by
    intro l h e; subst e; rfl
  exact hsz.trans (hK _ hp hlc)

/-- On the left operand's axis 1, its one non-contracting axis and the result's first, the left index reads the
    result index's first coordinate. -/
theorem lhsIdx_val_one (hln : D.lhsNonContracting = [1]) (hlb : D.lhsBatch = [])
    (j : (⟨2, ![M, N]⟩ : Shape).Idx) (k : D.contr.Idx) :
    (D.lhsIdx j k (1 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln])

/-- On the left operand's axis 0, the contracted one, the left index reads the contraction position's coordinate. -/
theorem lhsIdx_val_zero (hlc : D.lhsContracting = [0]) (j : (⟨2, ![M, N]⟩ : Shape).Idx) (k : D.contr.Idx) :
    (D.lhsIdx j k (0 : Fin 2)).val = (k ⟨0, by rw [D.rank_contr, hlc]; exact Nat.one_pos⟩).val :=
  D.lhsIdx_val_of_single hlc j k

/-- On the right operand's axis 0, the contracted one, the right index reads the contraction position's coordinate. -/
theorem rhsIdx_val_zero (hrc : D.rhsContracting = [0]) (j : (⟨2, ![M, N]⟩ : Shape).Idx) (k : D.contr.Idx) :
    (D.rhsIdx j k (0 : Fin 2)).val = (k ⟨0, by rw [D.rank_contr, ← D.length_contracting, hrc]; exact Nat.one_pos⟩).val :=
  D.rhsIdx_val_of_single hrc j k

/-- On the right operand's axis 1, its one non-contracting axis and the result's second (after the left operand's
    one), the right index reads the result index's second coordinate. -/
theorem rhsIdx_val_one (hln : D.lhsNonContracting = [1]) (hrn : D.rhsNonContracting = [1]) (hlb : D.lhsBatch = [])
    (hrb : D.rhsBatch = []) (j : (⟨2, ![M, N]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln, hrn])

/-- THE PRODUCT READ AT (p, n): the accumulator's entry plus the sum over the contracted position q of
    lhs(q, p) · rhs(q, n). -/
theorem matmul_lhsT_apply (hlc : D.lhsContracting = [0]) (hrc : D.rhsContracting = [0])
    (hln : D.lhsNonContracting = [1]) (hrn : D.rhsNonContracting = [1]) (hlb : D.lhsBatch = []) (hrb : D.rhsBatch = [])
    {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32)
    (p : Fin M) (n : Fin N) :
    FloatOps.matmul D prec lhs rhs acc (ix2 p n) = acc (ix2 p n) + ∑ q : Fin K, lhs (ix2 q p) * rhs (ix2 q n) := by
  have hr : D.contr.rank = 1 := by rw [DotDims.rank_contr, hlc]; rfl
  have hs : D.contr.size ⟨0, by omega⟩ = K := contr_size_lhsT D hlc (by omega)
  rw [Ideal.matmul_apply]
  congr 1
  -- the contraction index set is its one coordinate's range: re-index the sum through that bijection
  rw [← Equiv.sum_comp (contrEquiv1 D K hr hs).symm]
  refine Finset.sum_congr rfl fun q _ => ?_
  have hl : D.lhsIdx (ix2 p n) ((contrEquiv1 D K hr hs).symm q) = ix2 q p := by
    funext a
    match a with
    | ⟨0, _⟩ => exact Fin.ext ((lhsIdx_val_zero D hlc (ix2 p n) _).trans (contrEquiv1_symm_val D K hr hs q))
    | ⟨1, _⟩ => exact Fin.ext (lhsIdx_val_one D hln hlb (ix2 p n) _)
  have hrr : D.rhsIdx (ix2 p n) ((contrEquiv1 D K hr hs).symm q) = ix2 q n := by
    funext a
    match a with
    | ⟨0, _⟩ => exact Fin.ext ((rhsIdx_val_zero D hrc (ix2 p n) _).trans (contrEquiv1_symm_val D K hr hs q))
    | ⟨1, _⟩ => exact Fin.ext (rhsIdx_val_one D hln hrn hlb hrb (ix2 p n) _)
  rw [hl, hrr]

end Cert.MatmulLhsT

namespace Cert.KernelIdeal.Pay

open Idealize.ShloMosaic Idealize.ShloMosaic.TcCoe Idealize.ShloMosaic.ValueIdx
open Cert.KernelIdeal Cert.KernelIdeal.Gen

/-- The indicator of two 32-bit words being equal, as an extended real. -/
def ind (a b : BitVec 32) : EReal := if a = b then 1 else 0

/-- The 32-bit word of node 2000 k + q. -/
def nodeWord (k q : Nat) : BitVec 32 := BitVec.ofNat 32 (2000 * k + q)

/-! ## The pieces: the indicator, the node word, the broadcast column -/

/-- The widened one-bit equality of two words, converted to a float, is their indicator. -/
theorem sitofp_cmpi_eq (a b : BitVec 32) :
    FloatOps.sitofp (F := Ideal) .f32 ((IntOp.cmpi .eq a b).setWidth 32) = ind a b := by
  show (((((IntOp.cmpi .eq a b).setWidth 32).toInt : ℤ) : ℝ) : EReal) = ind a b
  unfold ind
  by_cases h : a = b
  · have hc : IntOp.cmpi .eq a b = 1#1 := by simp [IntOp.cmpi, h]
    rw [hc, if_pos h]
    have : ((1#1 : BitVec 1).setWidth 32).toInt = 1 := by decide
    rw [this]; simp
  · have hc : IntOp.cmpi .eq a b = 0#1 := by
      show BitVec.ofBool (a == b) = 0#1
      rw [beq_eq_false_iff_ne.mpr h]; rfl
    rw [hc, if_neg h]
    have : ((0#1 : BitVec 1).setWidth 32).toInt = 0 := by decide
    rw [this]; simp

/-- The chunk offset word: trip k's induction variable (from 0 by 1) times 2000 is the word of 2000 k. -/
theorem offset_word (k : Nat) : Scalar.muli (Scf.iv 0#32 1#32 k) 2000#32 = BitVec.ofNat 32 (2000 * k) := by
  show (0#32 + BitVec.ofNat 32 k * 1#32) * 2000#32 = BitVec.ofNat 32 (2000 * k)
  rw [BitVec.zero_add, BitVec.mul_one, Nat.mul_comm, BitVec.ofNat_mul]

/-- The same through the scattering loop's longer chain (times 1, plus 0, times 2000). -/
theorem offset_word' (k : Nat) :
    Scalar.muli (Scalar.addi 0#32 (Scalar.muli (Scf.iv 0#32 1#32 k) 1#32)) 2000#32 = BitVec.ofNat 32 (2000 * k) := by
  show (0#32 + (0#32 + BitVec.ofNat 32 k * 1#32) * 1#32) * 2000#32 = BitVec.ofNat 32 (2000 * k)
  rw [BitVec.mul_one, BitVec.zero_add, BitVec.zero_add, BitVec.mul_one, Nat.mul_comm, BitVec.ofNat_mul]

/-- The column counter along axis 1 plus the broadcast offset word of 2000 k, at (e, q), is the word of node
    2000 k + q. -/
theorem node_word_at (h : S320x2000.Iotas .tc 32 [1]) (k : Nat) (w : BitVec 32) (hw : w = BitVec.ofNat 32 (2000 * k))
    (e : Fin 320) (q : Fin 2000) :
    addi (iota .tc S320x2000 32 [1] h) (broadcast S320x2000 w) (ix2 e q) = nodeWord k q.val := by
  show (iota .tc S320x2000 32 [1] h (ix2 e q)) + w = nodeWord k q.val
  rw [iota_single_apply, hw]
  show BitVec.ofNat 32 q.val + BitVec.ofNat 32 (2000 * k) = BitVec.ofNat 32 (2000 * k + q.val)
  rw [← BitVec.ofNat_add, Nat.add_comm]

/-- A [320, 1] column broadcast along axis 1 to [320, 2000] reads, at (e, q), the column at (e, 0). -/
theorem bcast_col_2000 {α : Type} (x : S320x1.Idx → α) (h : S320x1.Broadcasts S320x2000) (e : Fin 320) (q : Fin 2000) :
    broadcastTo S320x2000 x h (ix2 e q) = x (ix2 e (0 : Fin 1)) :=
  broadcastTo_apply x h (ix2 e q) (ix2 e (0 : Fin 1)) fun a =>
    match a with
    | ⟨0, _⟩ => rfl
    | ⟨1, _⟩ => rfl

/-- A [320, 1] column broadcast along axis 1 to [320, 64] reads, at (e, o), the column at (e, 0). -/
theorem bcast_col_64 {α : Type} (x : S320x1.Idx → α) (h : S320x1.Broadcasts S320x64) (e : Fin 320) (o : Fin 64) :
    broadcastTo S320x64 x h (ix2 e o) = x (ix2 e (0 : Fin 1)) :=
  broadcastTo_apply x h (ix2 e o) (ix2 e (0 : Fin 1)) fun a =>
    match a with
    | ⟨0, _⟩ => rfl
    | ⟨1, _⟩ => rfl

/-- A [1, 64] row broadcast along axis 0 to [2000, 64] reads, at (r, o), the row at (0, o). -/
theorem bcast_row_2000 {α : Type} (x : S1x64.Idx → α) (h : S1x64.Broadcasts S2000x64) (r : Fin 2000) (o : Fin 64) :
    broadcastTo S2000x64 x h (ix2 r o) = x (ix2 (0 : Fin 1) o) :=
  broadcastTo_apply x h (ix2 r o) (ix2 (0 : Fin 1) o) fun a =>
    match a with
    | ⟨0, _⟩ => rfl
    | ⟨1, _⟩ => rfl

/-- The indicator matrix entry: the compared, widened, converted and format-changed words at (e, q). -/
theorem ind_at (h : S320x2000.Iotas .tc 32 [1]) (hb : S320x1.Broadcasts S320x2000) (hn : 1 < 32)
    (hf : FTy.bits .bf16 < FTy.bits .f32) (k : Nat) (w : BitVec 32) (hw : w = BitVec.ofNat 32 (2000 * k))
    (col : IVec S320x1 32) (e : Fin 320) (q : Fin 2000) :
    (truncf .bf16 (sitofp (F := Ideal) .f32 (extui 32 (cmpi .eq (addi (iota .tc S320x2000 32 [1] h) (broadcast S320x2000 w))
        (broadcastTo S320x2000 col hb)) hn)) hf) (ix2 e q)
      = ind (nodeWord k q.val) (col (ix2 e (0 : Fin 1))) := by
  show FloatOps.sitofp (F := Ideal) .f32 ((IntOp.cmpi .eq (addi (iota .tc S320x2000 32 [1] h) (broadcast S320x2000 w) (ix2 e q))
        (broadcastTo S320x2000 col hb (ix2 e q))).setWidth 32) = _
  rw [sitofp_cmpi_eq, node_word_at h k w hw, bcast_col_2000]

/-! ## The three bodies -/

/-- The gathering loop's body at (e, o): the carried value plus, over the 2000 nodes q of chunk k, the indicator of
    "node 2000 k + q is the source of edge e" times the chunk's row q at o. -/
theorem pay3_apply (v3 : Vec Ideal S320x1 .i32) (k : Fin k1_t1_loop.trips) (acc : FVec Ideal S320x64 .f32)
    (v19 : Vec Ideal S2000x64 .bf16) (e : Fin 320) (o : Fin 64) :
    k1_pay3 (F := Ideal) v3 k acc v19 (ix2 e o)
      = acc (ix2 e o) + ∑ q : Fin 2000, ind (nodeWord k.val q.val) (v3 (ix2 e (0 : Fin 1))) * v19 (ix2 q o) := by
  unfold k1_pay3
  refine (addf_apply _ _ _).trans (congrArg (acc (ix2 e o) + ·) ?_)
  refine (Cert.MatmulPlain.matmul_plain_apply (M := 320) (K := 2000) (N := 64)
    dot_S320x2000_S2000x64_S320x64_1_0_0_1_n_n rfl rfl rfl rfl rfl rfl none _ _ _ e o).trans ?_
  refine (congrArg (· + _) ((constant_apply _ _).trans Ideal.ofBits_zero_f32)).trans ((zero_add _).trans ?_)
  refine Finset.sum_congr rfl fun q _ => ?_
  refine congrArg₂ (· * ·) ?_ ?_
  · refine (ind_at _ _ _ _ k.val _ (offset_word k.val) _ e q).trans ?_
    exact congrArg (ind (nodeWord k.val q.val)) (congrFun (shapeCast_self v3 _) _)
  · exact congrFun (shapeCast_self v19 _) _

/-- The scattering loop's body at (p, o): the chunk's entry plus, over the 320 edges e of the block, the indicator of
    "node 2000 k + p is the destination of edge e" times the message of e at o (the gathered row times the weight). -/
theorem pay4_apply (v5 : Vec Ideal S320x1 .i32) (v7 : Vec Ideal S320x1 .f32) (v11 : FVec Ideal S320x64 .f32)
    (k : Fin k1_t2_loop.trips) (v30 : Vec Ideal S2000x64 .f32) (p : Fin 2000) (o : Fin 64) :
    k1_pay4 (F := Ideal) v5 v7 v11 k v30 (ix2 p o)
      = v30 (ix2 p o) + ∑ e : Fin 320, ind (nodeWord k.val p.val) (v5 (ix2 e (0 : Fin 1))) * (v11 (ix2 e o) * v7 (ix2 e (0 : Fin 1))) := by
  unfold k1_pay4
  refine (addf_apply _ _ _).trans (congrArg₂ (· + ·) (congrFun (shapeCast_self v30 _) _) ?_)
  refine (Cert.MatmulLhsT.matmul_lhsT_apply (M := 2000) (K := 320) (N := 64)
    dot_S320x2000_S320x64_S2000x64_0_0_1_1_n_n rfl rfl rfl rfl rfl rfl none _ _ _ p o).trans ?_
  refine (congrArg (· + _) ((constant_apply _ _).trans Ideal.ofBits_zero_f32)).trans ((zero_add _).trans ?_)
  refine Finset.sum_congr rfl fun e _ => ?_
  refine congrArg₂ (· * ·) ?_ ?_
  · refine (ind_at _ _ _ _ k.val _ (offset_word' k.val) _ e p).trans ?_
    exact congrArg (ind (nodeWord k.val p.val)) (congrFun (shapeCast_self v5 _) _)
  · -- the message: the gathered row times the weight column broadcast along the 64 channels
    refine (mulf_apply _ _ _).trans (congrArg (v11 (ix2 e o) * ·) ?_)
    refine (bcast_col_64 _ _ e o).trans ?_
    exact congrFun (shapeCast_self v7 _) _

/-- The first region's body at (r, o): the row r of the x block against column o of the transposed weights, plus the
    bias row at o. -/
theorem pay1_apply (x0 : Vec Ideal S2000x64 .f32) (x1 : Vec Ideal S64x64 .f32) (x2 : Vec Ideal S1x64 .f32) (r : Fin 2000) (o : Fin 64) :
    k0_pay1 (F := Ideal) x0 x1 x2 (ix2 r o)
      = (∑ d : Fin 64, x0 (ix2 r d) * x1 (ix2 d o)) + x2 (ix2 (0 : Fin 1) o) := by
  unfold k0_pay1
  refine (addf_apply _ _ _).trans (congrArg₂ (· + ·) ?_ ?_)
  · refine (Cert.MatmulPlain.matmul_plain_apply (M := 2000) (K := 64) (N := 64)
      dot_S2000x64_S64x64_S2000x64_1_0_0_1_n_n rfl rfl rfl rfl rfl rfl none _ _ _ r o).trans ?_
    refine (congrArg (· + _) ((constant_apply _ _).trans Ideal.ofBits_zero_f32)).trans ((zero_add _).trans ?_)
    refine Finset.sum_congr rfl fun d _ => ?_
    exact congrArg (x0 (ix2 r d) * ·) (congrFun (shapeCast_self x1 _) _)
  · refine (bcast_row_2000 _ _ r o).trans ?_
    exact congrFun (shapeCast_self x2 _) _

end Cert.KernelIdeal.Pay

end
-- ==== Proof.Region0.lean ====
import proofs.«406246_j3513283248909_1_alg».proof.Proof.Gen.KernelIdeal.Frame
import proofs.«406246_j3513283248909_1_alg».proof.Proof.LibMatmulPlain
import proofs.«406246_j3513283248909_1_alg».proof.Proof.Spec
import proofs.«406246_j3513283248909_1_alg».proof.Proof.Payloads
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

/-!
# The first region: the projected table

The first region runs over 50 blocks of 2000 node rows. At each block it multiplies the block of x by the
transposed weight matrix (resident whole), adds the bias row, and writes the block of the projected table. So the
projected table ends at h(n, o) = (sum over d of x(n, d) * W(o, d)) + b(o) at every (n, o).
-/

set_option maxRecDepth 16384

noncomputable section

open scoped BigOperators

namespace Cert.KernelIdeal.Value0

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The zero offsets of a whole-buffer load or store. -/
theorem offsets_zero : (![0, 0] : Fin 2 → Nat) = fun _ => 0 := funext fun a => by fin_cases a <;> rfl

/-- The block index of each window at each of the 50 points: the x block and the output block move with the
    point along the rows, the weight and bias blocks stay at the origin. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The arrays as the region finds them -/

/-- x is as launched. -/
theorem entry_x (c : Dev nD) : V1 m ρ c main_arg0 = m ((c.tc : Thread nD τ).loc main_arg0) := by
  show StableHlo.after hostOps0 (W0 m ρ c) (Proc.devRef .tc main_arg0) = _
  after_results

/-- The second window's array is the transposed weight matrix. -/
theorem entry_Wt (c : Dev nD) :
    (V1 m ρ c main_v0 : S64x64.Idx → EReal)
      = transpose S64x64 [1, 0] (m ((c.tc : Thread nD τ).loc main_arg4) : S64x64.Idx → EReal) transposes_S64x64_S64x64_1_0 := by
  show StableHlo.after hostOps0 (W0 m ρ c) (Proc.devRef .tc main_v0) = _
  after_results

/-- The third window's array is the bias as one row. -/
theorem entry_brow (c : Dev nD) :
    (V1 m ρ c main_v1 : S1x64.Idx → EReal)
      = shapeCast S1x64 (m ((c.tc : Thread nD τ).loc main_arg5) : S64.Idx → EReal) shapeCasts_S64_S1x64 := by
  show StableHlo.after hostOps0 (W0 m ρ c) (Proc.devRef .tc main_v1) = _
  after_results
  rfl

/-! ## One entry of a block -/

/-- The body's value at (r, o) of a block, when the x block's row r is row n of x, the weight block is the
    transposed W and the bias block is b as a row: the projected feature of node n at o. -/
theorem entry_value (x0 : Vec Ideal S2000x64 .f32) (x1 : Vec Ideal S64x64 .f32) (x2 : Vec Ideal S1x64 .f32)
    (X : Cert.Agg.SX.Idx → EReal) (W : Cert.Agg.SW.Idx → EReal) (b : Cert.Agg.SB.Idx → EReal)
    (r : Fin 2000) (o : Fin 64) (n : Fin 100000)
    (h0 : ∀ d : Fin 64, x0 (ix2 r d) = X (ix2 n d))
    (h1 : ∀ d : Fin 64, x1 (ix2 d o) = W (ix2 o d))
    (h2 : x2 (ix2 (0 : Fin 1) o) = b (ix1 o)) :
    k0_pay1 (F := Ideal) x0 x1 x2 (ix2 r o) = Cert.Agg.projArr X W b (ix2 n o) := by
  rw [Pay.pay1_apply, Cert.Agg.projArr_apply]
  unfold Cert.Agg.proj
  rw [h2]
  congr 1
  exact Finset.sum_congr rfl fun d _ => by rw [h0 d, h1 d]

/-- Where the entry (r, d) of the x block at point t sits in x: row 2000 t + r. -/
theorem x_block_at (t : Fin cfg0.N) (r : Fin 2000) (d : Fin 64) (n : Fin 100000) (hn : n.val = 2000 * t.val + r.val) :
    (((cfg0.win 0).blk t).view.emb (ix2 r d) : S100000x64.Idx) = ix2 n d := by
  obtain ⟨e0, e1, e2, e3, e4, e5, e6, e7⟩ := block_index t
  funext a; apply Fin.ext
  match a with
  | ⟨0, _⟩ => show win0_0.index t (0 : Fin 2) * 2000 + 1 * r.val = n.val; omega
  | ⟨1, _⟩ => show win0_0.index t (1 : Fin 2) * 64 + 1 * d.val = d.val; omega

/-- The weight block is the whole transposed matrix. -/
theorem Wt_block_at (t : Fin cfg0.N) (d o : Fin 64) :
    (((cfg0.win 1).blk t).view.emb (ix2 d o) : S64x64.Idx) = ix2 d o := by
  obtain ⟨e0, e1, e2, e3, e4, e5, e6, e7⟩ := block_index t
  funext a; apply Fin.ext
  match a with
  | ⟨0, _⟩ => show win0_1.index t (0 : Fin 2) * 64 + 1 * d.val = d.val; omega
  | ⟨1, _⟩ => show win0_1.index t (1 : Fin 2) * 64 + 1 * o.val = o.val; omega

/-- The bias block is the whole row. -/
theorem brow_block_at (t : Fin cfg0.N) (u : Fin 1) (o : Fin 64) :
    (((cfg0.win 2).blk t).view.emb (ix2 u o) : S1x64.Idx) = ix2 u o := by
  obtain ⟨e0, e1, e2, e3, e4, e5, e6, e7⟩ := block_index t
  funext a; apply Fin.ext
  match a with
  | ⟨0, _⟩ => show win0_2.index t (0 : Fin 2) * 1 + 1 * u.val = u.val; omega
  | ⟨1, _⟩ => show win0_2.index t (1 : Fin 2) * 64 + 1 * o.val = o.val; omega

/-- Where the entry (r, o) of the output block at point t sits in the projected table: row 2000 t + r. -/
theorem out_block_at (t : Fin cfg0.N) (r : Fin 2000) (o : Fin 64) (n : Fin 100000) (hn : n.val = 2000 * t.val + r.val) :
    (((cfg0.win 3).blk t).view.emb (ix2 r o) : S100000x64.Idx) = ix2 n o := by
  obtain ⟨e0, e1, e2, e3, e4, e5, e6, e7⟩ := block_index t
  funext a; apply Fin.ext
  match a with
  | ⟨0, _⟩ => show win0_3.index t (0 : Fin 2) * 2000 + 1 * r.val = n.val; omega
  | ⟨1, _⟩ => show win0_3.index t (1 : Fin 2) * 64 + 1 * o.val = o.val; omega

/-! ## What a point writes back -/

/-- Point t writes back block t of the projected table of the arguments. -/
theorem written_back (c : Dev nD) (t : Fin cfg0.N) :
    (dat0 (V1 m ρ) c).flushed 3 t = ((cfg0.win 3).blk t).view.read (Elt Ideal)
      (Cert.Agg.projArr (m ((c.tc : Thread nD τ).loc main_arg0)) (m ((c.tc : Thread nD τ).loc main_arg4)) (m ((c.tc : Thread nD τ).loc main_arg5))) := by
  show (cfg0.win 3).cut (grid0.coords t) ((dat0 (V1 m ρ) c).after 3 t) = _
  rw [after0_3]
  unfold out0_3
  rw [View.canon_unit_zero offsets_zero]
  simp only [View.ld_unit_zero (S := S2000x64) offsets_zero, View.ld_unit_zero (S := S64x64) offsets_zero, View.ld_unit_zero (S := S1x64) offsets_zero]
  funext y
  obtain ⟨r, o, rfl⟩ : ∃ (r : Fin 2000) (o : Fin 64), y = ix2 r o := ⟨y 0, y 1, eq_ix2 (n0 := 2000) (n1 := 64) y⟩
  have ht : t.val < 50 := lt_of_lt_of_eq t.isLt N_0
  have hr : r.val < 2000 := r.isLt
  obtain ⟨n, hn⟩ : ∃ n : Fin 100000, n.val = 2000 * t.val + r.val := ⟨⟨2000 * t.val + r.val, by omega⟩, rfl⟩
  show k0_pay1 (F := Ideal) (iblk0 (V1 m ρ) c 0 t) (iblk0 (V1 m ρ) c 1 t) (iblk0 (V1 m ρ) c 2 t) (ix2 r o)
    = Cert.Agg.projArr (m ((c.tc : Thread nD τ).loc main_arg0)) (m ((c.tc : Thread nD τ).loc main_arg4)) (m ((c.tc : Thread nD τ).loc main_arg5))
        (((cfg0.win 3).blk t).view.emb (ix2 r o))
  rw [out_block_at t r o n hn]
  refine entry_value _ _ _ _ _ _ r o n (fun d => ?_) (fun d => ?_) ?_
  · show V1 m ρ c main_arg0 (((cfg0.win 0).blk t).view.emb (ix2 r d)) = _
    rw [x_block_at t r d n hn, entry_x]
  · show (V1 m ρ c main_v0 : S64x64.Idx → EReal) (((cfg0.win 1).blk t).view.emb (ix2 d o)) = _
    rw [Wt_block_at t d o, entry_Wt]
    exact transpose_ix2_apply _ _ d o
  · show (V1 m ρ c main_v1 : S1x64.Idx → EReal) (((cfg0.win 2).blk t).view.emb (ix2 (0 : Fin 1) o)) = _
    rw [brow_block_at t 0 o, entry_brow]
    exact shapeCast_a_1a_apply _ _ 0 o

/-! ## The blocks cover the table -/

/-- An index of the projected table is in point t's block iff, on each axis, its coordinate is in the block's range. -/
theorem mem_out_block (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v2).slice (win0_3.rect t)).set ↔ _
  rw [View.set_slice_whole, Rect.mem_set_unit]
  exact Iff.rfl

/-- Row n of the table lies in the block of point n / 2000, which is written back. -/
theorem rows_covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  refine ⟨t, flush0_3 t, ?_⟩
  rw [mem_out_block]
  obtain ⟨e0, e1, e2, e3, e4, e5, e6, e7⟩ := block_index t
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 64 ≤ (i 1).val ∧ (i 1).val < win0_3.index t (1 : Fin 2) * 64 + 64
    omega

/-- What the first region's pipeline leaves in its output array, from the launch memory: the projected table of the
    arguments x, W and b. -/
theorem region0_value (c : Dev nD) :
    (dat0 (V1 m ρ) c).arrAt 3 cfg0.N
      = Cert.Agg.projArr (m ((c.tc : Thread nD τ).loc main_arg0)) (m ((c.tc : Thread nD τ).loc main_arg4)) (m ((c.tc : Thread nD τ).loc main_arg5)) :=
  (dat0 (V1 m ρ) c).arrAt_eq_of_cover 3
    (Cert.Agg.projArr (m ((c.tc : Thread nD τ).loc main_arg0)) (m ((c.tc : Thread nD τ).loc main_arg4)) (m ((c.tc : Thread nD τ).loc main_arg5)))
    (fun t _ => written_back m ρ c t) rows_covered

end Cert.KernelIdeal.Value0

end
-- ==== Proof.Math.lean ====
import proofs.«406246_j3513283248909_1_alg».proof.Proof.Payloads
import proofs.«406246_j3513283248909_1_alg».proof.Proof.Spec
import Mathlib.Algebra.BigOperators.Group.Finset.Basic
import Mathlib.Algebra.BigOperators.Fin

/-!
# The two sums behind the aggregation by indicator products

* Gathering. Summing, over all 100000 nodes taken chunk by chunk, the indicator "this node is edge e's source" times the
  node's row picks out exactly the source's row, when the source index is a node.
* Scattering. Summing, over the 3750 blocks of 320 edges, the indicator "node n is edge e's destination" times the
  edge's message is the sum of the messages over the edges whose destination is n.
-/

set_option maxRecDepth 16384

noncomputable section

open scoped BigOperators

namespace Cert.Agg.Math

open Idealize.ShloMosaic Idealize.ShloMosaic.ValueIdx
open Idealize.ShloMosaic.StableHlo.Predicate (ixP)
open Cert.KernelIdeal.Pay (ind nodeWord)
open Cert.Agg

/-- A number below 100000 survives the trip through a 32-bit word read signed. -/
private theorem toInt_ofNat_small (n : Nat) (hn : n < 100000) : (BitVec.ofNat 32 n).toInt = (n : ℤ) := by
  have h : (BitVec.ofNat 32 n).toNat = n := by
    rw [BitVec.toNat_ofNat]
    omega
  rw [BitVec.toInt_eq_toNat_of_lt (by rw [h]; omega), h]

/-- The word of a node number below 100000 equals a 32-bit word exactly when the word, read signed, is the number. -/
theorem ind_ofNat (n : Nat) (hn : n < 100000) (d : BitVec 32) :
    ind (BitVec.ofNat 32 n) d = if d.toInt = (n : ℤ) then 1 else 0 := by
  unfold ind
  have h1 := toInt_ofNat_small n hn
  by_cases h : BitVec.ofNat 32 n = d
  · subst h
    rw [if_pos rfl, if_pos h1]
  · have h2 : d.toInt ≠ (n : ℤ) := fun hd => h (BitVec.eq_of_toInt_eq (h1.trans hd.symm))
    rw [if_neg h, if_neg h2]

/-- One chunk of the gathering sum: over the 2000 nodes of chunk k, the indicator "node 2000 k + q is the word s" times
    the table's row 2000 k + q is the row addressed by s when that row lies in chunk k, and zero otherwise. -/
private theorem chunk_sum (s : BitVec 32) (tbl : SX.Idx → EReal) (o : Fin 64) (k : Fin 50)
    (hr : 0 ≤ s.toInt ∧ s.toInt < 100000) :
    (∑ q : Fin 2000, ind (nodeWord k.val q.val) s
        * tbl (ix2 (⟨2000 * k.val + q.val, by have := k.isLt; have := q.isLt; omega⟩ : Fin 100000) o))
      = if 2000 * k.val ≤ (rowOf s).val ∧ (rowOf s).val < 2000 * (k.val + 1) then tbl (ix2 (rowOf s) o) else 0 := by
  have hrow := rowOf_val_of_range s hr.1 hr.2
  have hk := k.isLt
  split_ifs with hc
  · -- the row lies in this chunk: only q = row - 2000 k contributes
    rw [Finset.sum_eq_single (⟨(rowOf s).val - 2000 * k.val, by omega⟩ : Fin 2000)]
    · unfold nodeWord
      rw [ind_ofNat _ (by show 2000 * k.val + ((rowOf s).val - 2000 * k.val) < 100000; omega),
        if_pos (by show s.toInt = ((2000 * k.val + ((rowOf s).val - 2000 * k.val) : ℕ) : ℤ); omega), one_mul]
      congr 2
      apply Fin.ext
      show 2000 * k.val + ((rowOf s).val - 2000 * k.val) = (rowOf s).val
      omega
    · intro q _ hq
      have hql := q.isLt
      unfold nodeWord
      rw [ind_ofNat _ (by omega), if_neg, zero_mul]
      intro h
      apply hq
      apply Fin.ext
      show q.val = (rowOf s).val - 2000 * k.val
      omega
    · intro h
      exact absurd (Finset.mem_univ _) h
  · -- the row lies elsewhere: every term vanishes
    apply Finset.sum_eq_zero
    intro q _
    have hql := q.isLt
    unfold nodeWord
    rw [ind_ofNat _ (by omega), if_neg (by omega), zero_mul]

/-- GATHERING IN CLOSED FORM. A carried [320, 64] value that starts at zero and, at trip k of 50, grows at (e, o) by
    the sum over the 2000 nodes q of chunk k of the indicator "node 2000 k + q is the word s e" times the table's row
    2000 k + q at o, ends, after the 50 trips, at the table's row addressed by s e, when s e read signed is in
    [0, 100000). -/
theorem gather_closed (s : Fin 320 → BitVec 32) (tbl : SX.Idx → EReal)
    (st : ℕ → (⟨2, ![320, 64]⟩ : Shape).Idx → EReal)
    (h0 : ∀ (e : Fin 320) (o : Fin 64), st 0 (ix2 e o) = 0)
    (hs : ∀ (k : Fin 50) (e : Fin 320) (o : Fin 64), st (k.val + 1) (ix2 e o)
        = st k.val (ix2 e o) + ∑ q : Fin 2000, ind (nodeWord k.val q.val) (s e)
            * tbl (ix2 (⟨2000 * k.val + q.val, by have := k.isLt; have := q.isLt; omega⟩ : Fin 100000) o))
    (hr : ∀ e : Fin 320, 0 ≤ (s e).toInt ∧ (s e).toInt < 100000) (e : Fin 320) (o : Fin 64) :
    st 50 (ix2 e o) = tbl (ix2 (rowOf (s e)) o) := by
  -- after k trips the carried value holds the addressed row if that row lies in the first k chunks, and zero otherwise
  have key : ∀ k : ℕ, k ≤ 50 →
      st k (ix2 e o) = if (rowOf (s e)).val < 2000 * k then tbl (ix2 (rowOf (s e)) o) else 0 := by
    intro k
    induction k with
    | zero =>
      intro _
      rw [h0, if_neg (by omega)]
    | succ k ih =>
      intro hk
      have hk' : k < 50 := by omega
      have hstep := hs ⟨k, hk'⟩ e o
      have hchunk := chunk_sum (s e) tbl o ⟨k, hk'⟩ (hr e)
      simp only at hstep hchunk
      rw [hstep, ih (by omega), hchunk]
      by_cases h1 : (rowOf (s e)).val < 2000 * k
      · rw [if_pos h1, if_neg (by omega), if_pos (by omega), add_zero]
      · by_cases h2 : (rowOf (s e)).val < 2000 * (k + 1)
        · rw [if_neg h1, if_pos ⟨by omega, h2⟩, if_pos h2, zero_add]
        · rw [if_neg h1, if_neg (by omega), if_neg h2, add_zero]
  rw [key 50 le_rfl, if_pos (by have := (rowOf (s e)).isLt; omega)]

/-- A sum over m blocks of n points, the point e of block t sitting at n t + e, is the sum over all m n points. -/
private theorem sum_blocks {M : Type} [AddCommMonoid M] (m n N : ℕ) (hN : m * n = N) (F : Fin N → M)
    (hlt : ∀ (t : Fin m) (e : Fin n), n * t.val + e.val < N) :
    (∑ t : Fin m, ∑ e : Fin n, F ⟨n * t.val + e.val, hlt t e⟩) = ∑ x : Fin N, F x := by
  subst hN
  rw [← Fintype.sum_prod_type' (fun (t : Fin m) (e : Fin n) => F ⟨n * t.val + e.val, hlt t e⟩)]
  refine Fintype.sum_equiv finProdFinEquiv _ _ (fun x => ?_)
  congr 1
  apply Fin.ext
  show n * x.1.val + x.2.val = (finProdFinEquiv x).val
  rw [finProdFinEquiv_apply_val]
  omega

/-- SCATTERING OVER THE BLOCKS. The sum over the 3750 blocks t and the 320 edges e of a block of the indicator
    "node n is the destination of edge 320 t + e" times that edge's message is the aggregate at (n, o). -/
theorem agg_blocks (h : SX.Idx → EReal) (srcC dstC : SC.Idx → BitVec 32) (wC : SC.Idx → EReal) (n : Fin 100000) (o : Fin 64) :
    (∑ t : Fin 3750, ∑ e : Fin 320,
        ind (BitVec.ofNat 32 n.val) (dstC (ixP (⟨320 * t.val + e.val, by have := t.isLt; have := e.isLt; omega⟩ : Fin 1200000)))
          * (h (ix2 (rowOf (srcC (ixP (⟨320 * t.val + e.val, by have := t.isLt; have := e.isLt; omega⟩ : Fin 1200000)))) o)
              * wC (ixP (⟨320 * t.val + e.val, by have := t.isLt; have := e.isLt; omega⟩ : Fin 1200000))))
      = aggCol h srcC dstC wC n o := by
  unfold aggCol
  rw [Finset.sum_filter]
  -- the message of edge x where its destination is n, zero elsewhere
  have hblk := sum_blocks 3750 320 1200000 (by norm_num)
    (fun x : Fin 1200000 => if (dstC (ixP x)).toInt = (n.val : ℤ)
      then h (ix2 (rowOf (srcC (ixP x))) o) * wC (ixP x) else 0)
    (fun t e => by have := t.isLt; have := e.isLt; omega)
  rw [← hblk]
  refine Finset.sum_congr rfl fun t _ => Finset.sum_congr rfl fun e _ => ?_
  rw [ind_ofNat _ n.isLt, ite_mul, one_mul, zero_mul]

/-- A running sum over the first points of a function on 3750 points, extended by zero, is after the last point the sum
    over all 3750. -/
theorem sum_range_points (cf : Fin 3750 → EReal) :
    (∑ t ∈ Finset.range 3750, (if ht : t < 3750 then cf ⟨t, ht⟩ else 0)) = ∑ t : Fin 3750, cf t := by
  rw [Finset.sum_range]
  refine Finset.sum_congr rfl fun t _ => ?_
  rw [dif_pos t.isLt]

end Cert.Agg.Math

end
-- ==== Proof.Region1Loops.lean ====
import proofs.«406246_j3513283248909_1_alg».proof.Proof.Gen.KernelIdeal.Frame
import proofs.«406246_j3513283248909_1_alg».proof.Proof.Payloads
import proofs.«406246_j3513283248909_1_alg».proof.Proof.Math
import proofs.«406246_j3513283248909_1_alg».proof.Proof.Spec
import Idealize.ShloMosaic.Lib.Pipeline.Value
import Idealize.ShloMosaic.Lib.WritesUnit
import Idealize.ShloMosaic.Lib.ValueIdx
import Idealize.ShloMosaic.PureOps.Ideal.Laws

/-!
# The second region's body: its two loops in closed form

The body of the second region handles one block of 320 edges. Its first loop walks the projected table in 50 chunks
of 2000 rows and gathers, by indicator products, the projected row of each edge's source. Its second loop walks the
output in the same 50 chunks and adds to each chunk, by the transposed indicator product, the messages of the edges
whose destination falls in the chunk. Read as values: the gathered rows are the table's rows at the source indices,
and after the second loop every output entry (n, o) has grown by the sum, over the block's edges whose destination
is n, of the gathered row at o times the edge's weight.
-/

set_option maxRecDepth 16384

noncomputable section

open scoped BigOperators

namespace Cert.KernelIdeal.Value1

open Idealize.ShloMosaic Idealize.ShloMosaic.TcCoe Idealize.SL.Sem Idealize.ShloMosaic.ValueIdx
open Idealize.ShloMosaic.StableHlo.Predicate (ixP)
open Idealize.ShloMosaic.Pipeline (Dat)
open Cert.KernelIdeal Cert.KernelIdeal.Gen
open Cert.KernelIdeal.Pay (ind nodeWord)
open Idealize.ShloMosaic.Tactic

section Loops

variable (c : Dev nD) (i : grid1.Coords) (arg1 : Memref sig .tc .vmem S320x1 .i32) (harg1 : arg1.IsWhole)
  (arg2 : Memref sig .tc .vmem S320x1 .i32) (harg2 : arg2.IsWhole) (arg3 : Memref sig .tc .vmem S320x1 .f32) (harg3 : arg3.IsWhole)
  (arg4 : Memref sig .tc .vmem S100000x64 .bf16) (harg4 : arg4.IsWhole) (arg5 : Memref sig .tc .vmem S100000x64 .f32) (harg5 : arg5.IsWhole)

theorem trips1 : k1_t1_loop.trips = 50 := by decide +kernel
theorem trips2 : k1_t2_loop.trips = 50 := by decide +kernel

/-- One trip of the gathering loop: the body's value over the chunk of the table the trip loads. -/
theorem trip1_eq (v3 : Vec Ideal S320x1 .i32) (X4 : BufTy.Contents (Elt Ideal) arg4.view.ty) (k : Fin k1_t1_loop.trips)
    (acc : FVec Ideal S320x64 .f32) :
    tripR_k1_t1 (F := Ideal) Variants.none c none i arg1 harg1 arg2 harg2 arg3 harg3 arg4 harg4 arg5 harg5 v3 X4 k acc
      = k1_pay3 (F := Ideal) v3 k acc (View.ld (arg4.view.read (Elt Ideal) X4) (Rect.unit (s := S100000x64) (k1_off1 k) S2000x64.size (k1_off1_inb k))) := by
  unfold tripR_k1_t1 trip_k1_t1
  rfl

/-- One trip of the scattering loop: one store, at the trip's 2000 rows, of the body's value over the rows it loads. -/
theorem trip2_eq (v5 : Vec Ideal S320x1 .i32) (v7 : Vec Ideal S320x1 .f32) (v11 : FVec Ideal S320x64 .f32) (k : Fin k1_t2_loop.trips)
    (f : BufTy.Contents (Elt Ideal) arg5.view.ty) :
    tripL_k1_t2 (F := Ideal) Variants.none c none i arg1 harg1 arg2 harg2 arg3 harg3 arg4 harg4 arg5 harg5 v5 v7 v11 k f
      = [⟨Rect.unit (s := S100000x64) (k1_off2 k) S2000x64.size (k1_off2_inb k),
          k1_pay4 (F := Ideal) v5 v7 v11 k (View.ld (arg5.view.read (Elt Ideal) f) (Rect.unit (s := S100000x64) (k1_off2 k) S2000x64.size (k1_off2_inb k)))⟩] := by
  unfold tripL_k1_t2 trip_k1_t2
  rfl

/-- A chunk's row q, column o, is the table's row 2000 k + q. -/
theorem ld_chunk1 (X : Vec Ideal S100000x64 .bf16) (k : Fin k1_t1_loop.trips) (q : Fin 2000) (o : Fin 64) :
    View.ld (Val := Elt Ideal) X (Rect.unit (s := S100000x64) (k1_off1 k) S2000x64.size (k1_off1_inb k)) (ix2 q o)
      = X (ix2 (⟨2000 * k.val + q.val, by have h := Nat.lt_of_lt_of_eq k.isLt trips1; have := q.isLt; omega⟩ : Fin 100000) o) := by
  show X _ = X _
  congr 1
  funext a
  apply Fin.ext
  have hoff := k1_off1_eq k
  match a with
  | ⟨0, _⟩ =>
    show k1_off1 k 0 + 1 * q.val = 2000 * k.val + q.val
    rw [hoff]; show 2000 * k.val + 1 * q.val = _; omega
  | ⟨1, _⟩ =>
    show k1_off1 k 1 + 1 * o.val = o.val
    rw [hoff]; show 0 + 1 * o.val = _; omega

/-- The gathering loop starts from zeros. -/
theorem pay2_apply (e : Fin 320) (o : Fin 64) : k1_pay2 (F := Ideal) (ix2 e o) = 0 := by
  unfold k1_pay2
  exact Ideal.ofBits_zero_f32

/-- THE GATHERED ROWS. After its 50 trips the gathering loop's carried value holds, at (e, o), the table's row addressed
    by edge e's source index, when every source index of the block is a node: each trip adds the products of the
    indicators of its chunk's nodes with the chunk's rows, and over all chunks exactly the source's indicator is one. -/
theorem gathered (v3 : Vec Ideal S320x1 .i32) (x3 : Vec Ideal S100000x64 .bf16)
    (hr : ∀ e : Fin 320, 0 ≤ (v3 (ix2 e (0 : Fin 1))).toInt ∧ (v3 (ix2 e (0 : Fin 1))).toInt < 100000) (e : Fin 320) (o : Fin 64) :
    st_k1_t1 (F := Ideal) Variants.none c none i arg1 harg1 arg2 harg2 arg3 harg3 arg4 harg4 arg5 harg5 v3 (harg4.unread x3) (k1_pay2 (F := Ideal)) k1_t1_loop.trips (ix2 e o)
      = x3 (ix2 (Cert.Agg.rowOf (v3 (ix2 e (0 : Fin 1)))) o) := by
  rw [trips1]
  refine Cert.Agg.Math.gather_closed (fun e => v3 (ix2 e (0 : Fin 1))) x3
    (fun k => st_k1_t1 (F := Ideal) Variants.none c none i arg1 harg1 arg2 harg2 arg3 harg3 arg4 harg4 arg5 harg5 v3 (harg4.unread x3) (k1_pay2 (F := Ideal)) k) ?_ ?_ hr e o
  · intro e o
    exact pay2_apply e o
  · intro k e o
    have hk : k.val < k1_t1_loop.trips := by rw [trips1]; exact k.isLt
    have hsucc := st_k1_t1_succ (F := Ideal) Variants.none c none i arg1 harg1 arg2 harg2 arg3 harg3 arg4 harg4 arg5 harg5 v3 (harg4.unread x3) (k1_pay2 (F := Ideal)) ⟨k.val, hk⟩
    show st_k1_t1 (F := Ideal) Variants.none c none i arg1 harg1 arg2 harg2 arg3 harg3 arg4 harg4 arg5 harg5 v3 (harg4.unread x3) (k1_pay2 (F := Ideal)) (k.val + 1) (ix2 e o) = _
    rw [hsucc, trip1_eq, Cert.KernelIdeal.Pay.pay3_apply]
    congr 1
    refine Finset.sum_congr rfl fun q _ => ?_
    rw [ld_chunk1, harg4.read_unread]

/-- What one block of 320 edges adds at (n, o): over the block's edges, the indicator of "node n is the edge's
    destination" times the edge's message (its gathered row at o times its weight). -/
def contrib (v5 : Vec Ideal S320x1 .i32) (v7 : Vec Ideal S320x1 .f32) (v11 : FVec Ideal S320x64 .f32) (y : S100000x64.Idx) : EReal :=
  ∑ e : Fin 320, ind (BitVec.ofNat 32 (y 0).val) (v5 (ix2 e (0 : Fin 1)))
    * (v11 (ix2 e (⟨(y 1).val, (y 1).isLt⟩ : Fin 64)) * v7 (ix2 e (0 : Fin 1)))

/-- THE SCATTERING LOOP AFTER k TRIPS. Over contents reading as X0, the buffer after the first k trips reads, at a row
    below 2000 k, X0 plus the block's contribution, and at any other row X0: trip k loads rows [2000 k, 2000 k + 2000),
    which no earlier trip has touched, adds the transposed indicator product, and stores them back. -/
theorem scatter_inv (v5 : Vec Ideal S320x1 .i32) (v7 : Vec Ideal S320x1 .f32) (v11 : FVec Ideal S320x64 .f32)
    (G : BufTy.Contents (Elt Ideal) arg5.view.ty) (X0 : Vec Ideal S100000x64 .f32) (hG : arg5.view.read (Elt Ideal) G = X0) :
    ∀ (k : ℕ), k ≤ 50 → ∀ y : S100000x64.Idx,
      arg5.view.read (Elt Ideal) (arg5.view.writes (Elt Ideal) G
          (pb_k1_t2 (F := Ideal) Variants.none c none i arg1 harg1 arg2 harg2 arg3 harg3 arg4 harg4 arg5 harg5 v5 v7 v11 G k)) y
        = if (y 0).val < 2000 * k then X0 y + contrib v5 v7 v11 y else X0 y
  | 0, _, y => by
    rw [if_neg (by omega)]
    exact congrFun hG y
  | k + 1, hk, y => by
    have hkt : k < k1_t2_loop.trips := by rw [trips2]; omega
    have ih := scatter_inv v5 v7 v11 G X0 hG k (by omega)
    have hsucc := pb_k1_t2_succ (F := Ideal) Variants.none c none i arg1 harg1 arg2 harg2 arg3 harg3 arg4 harg4 arg5 harg5 v5 v7 v11 G ⟨k, hkt⟩
    have hkv : ((⟨k, hkt⟩ : Fin k1_t2_loop.trips) : ℕ) = k := rfl
    have hy0 : (y 0).val < 100000 := (y 0).isLt
    rw [show pb_k1_t2 (F := Ideal) Variants.none c none i arg1 harg1 arg2 harg2 arg3 harg3 arg4 harg4 arg5 harg5 v5 v7 v11 G (k + 1)
        = pb_k1_t2 (F := Ideal) Variants.none c none i arg1 harg1 arg2 harg2 arg3 harg3 arg4 harg4 arg5 harg5 v5 v7 v11 G ((⟨k, hkt⟩ : Fin k1_t2_loop.trips).val + 1) from rfl,
      hsucc, trip2_eq, List.singleton_append]
    by_cases hy : 2000 * k ≤ (y 0).val ∧ (y 0).val < 2000 * k + 2000
    · have hy1 : (y 1).val < 64 := (y 1).isLt
      have hp : (y 0).val - 2000 * k < 2000 := by omega
      have hidx : (Rect.unit (s := S100000x64) (k1_off2 ⟨k, hkt⟩) S2000x64.size (k1_off2_inb ⟨k, hkt⟩)).idx
          (ix2 (⟨(y 0).val - 2000 * k, hp⟩ : Fin 2000) (⟨(y 1).val, hy1⟩ : Fin 64)) = y := by
        funext a
        apply Fin.ext
        have hoff := k1_off2_eq ⟨k, hkt⟩
        match a with
        | ⟨0, _⟩ =>
          show k1_off2 ⟨k, hkt⟩ 0 + 1 * ((y 0).val - 2000 * k) = (y 0).val
          rw [hoff]; show 2000 * k + 1 * ((y 0).val - 2000 * k) = (y 0).val; omega
        | ⟨1, _⟩ =>
          show k1_off2 ⟨k, hkt⟩ 1 + 1 * (y 1).val = (y 1).val
          rw [hoff]; show 0 + 1 * (y 1).val = (y 1).val; omega
      rw [View.read_writes_cons_rows_of_mem (d := ![100000, 64]) arg5.view G (k1_off2_inb ⟨k, hkt⟩) _ _ y
        (ix2 (⟨(y 0).val - 2000 * k, hp⟩ : Fin 2000) (⟨(y 1).val, hy1⟩ : Fin 64)) (o := 2000 * k) (k1_off2_eq ⟨k, hkt⟩)
        (by show (y 0).val = 2000 * k + ((y 0).val - 2000 * k); omega) rfl]
      rw [Cert.KernelIdeal.Pay.pay4_apply, if_pos (by omega)]
      unfold View.ld
      rw [hidx, ih y, if_neg (by omega)]
      congr 1
      unfold contrib
      refine Finset.sum_congr rfl fun e _ => ?_
      congr 2
      unfold nodeWord
      congr 1
      show 2000 * k + ((y 0).val - 2000 * k) = (y 0).val
      omega
    · rw [View.read_writes_cons_rows_of_not_mem (d := ![100000, 64]) arg5.view G (k1_off2_inb ⟨k, hkt⟩) _ _ y
        (o := 2000 * k) (W := 2000) (k1_off2_eq ⟨k, hkt⟩) rfl (by omega), ih y]
      by_cases h1 : (y 0).val < 2000 * k
      · rw [if_pos h1, if_pos (by omega)]
      · rw [if_neg h1, if_neg (by omega)]

theorem hz2 : (![0, 0] : Fin 2 → Nat) = fun _ => 0 := funext fun a => by fin_cases a <;> rfl

/-- The gathered rows of a block as an array: at (e, o) the table's row addressed by edge e's source index, at o. -/
def gath (v3 : Vec Ideal S320x1 .i32) (x3 : Vec Ideal S100000x64 .bf16) : FVec Ideal S320x64 .f32 :=
  fun j => x3 (ix2 (Cert.Agg.rowOf (v3 (ix2 (⟨(j 0).val, (j 0).isLt⟩ : Fin 320) (0 : Fin 1)))) (⟨(j 1).val, (j 1).isLt⟩ : Fin 64))

/-- The gathering loop's result is the gathered rows. -/
theorem st_eq_gath (v3 : Vec Ideal S320x1 .i32) (x3 : Vec Ideal S100000x64 .bf16)
    (hr : ∀ e : Fin 320, 0 ≤ (v3 (ix2 e (0 : Fin 1))).toInt ∧ (v3 (ix2 e (0 : Fin 1))).toInt < 100000) :
    st_k1_t1 (F := Ideal) Variants.none c none i arg1 harg1 arg2 harg2 arg3 harg3 arg4 harg4 arg5 harg5 v3 (harg4.unread x3) (k1_pay2 (F := Ideal)) k1_t1_loop.trips
      = gath v3 x3 := by
  funext j
  obtain ⟨e, o, rfl⟩ : ∃ (e : Fin 320) (o : Fin 64), j = ix2 e o := ⟨j 0, j 1, eq_ix2 j⟩
  exact gathered c i arg1 harg1 arg2 harg2 arg3 harg3 arg4 harg4 arg5 harg5 v3 x3 hr e o

/-- After all 50 trips every row has received the block's contribution. -/
theorem scatter_final (v5 : Vec Ideal S320x1 .i32) (v7 : Vec Ideal S320x1 .f32) (v11 : FVec Ideal S320x64 .f32)
    (G : BufTy.Contents (Elt Ideal) arg5.view.ty) (X0 : Vec Ideal S100000x64 .f32) (hG : arg5.view.read (Elt Ideal) G = X0)
    (y : S100000x64.Idx) :
    arg5.view.read (Elt Ideal) (arg5.view.writes (Elt Ideal) G
        (pb_k1_t2 (F := Ideal) Variants.none c none i arg1 harg1 arg2 harg2 arg3 harg3 arg4 harg4 arg5 harg5 v5 v7 v11 G k1_t2_loop.trips)) y
      = X0 y + contrib v5 v7 v11 y := by
  have hy0 : (y 0).val < 100000 := (y 0).isLt
  rw [trips2, scatter_inv c i arg1 harg1 arg2 harg2 arg3 harg3 arg4 harg4 arg5 harg5 v5 v7 v11 G X0 hG 50 (le_refl _) y, if_pos (by omega)]

/-- A POINT AFTER THE FIRST: over the output's running contents xo4 the body leaves, at y, xo4 y plus the block's
    contribution, the messages being the gathered rows times the weights. -/
theorem out_B (hc0 : ¬cond1_0 i) (x0 x1 : Vec Ideal S320x1 .i32) (x2 : Vec Ideal S320x1 .f32) (x3 : Vec Ideal S100000x64 .bf16)
    (xo4 : Vec Ideal S100000x64 .f32)
    (hr : ∀ e : Fin 320, 0 ≤ (x0 (ix2 e (0 : Fin 1))).toInt ∧ (x0 (ix2 e (0 : Fin 1))).toInt < 100000) (y : S100000x64.Idx) :
    out1_B_4 (F := Ideal) c i arg1 harg1 arg2 harg2 arg3 harg3 arg4 harg4 arg5 harg5 hc0 x0 x1 x2 x3 xo4 y = xo4 y + contrib x1 x2 (gath x0 x3) y := by
  unfold out1_B_4
  rw [View.read_writes_apply_eq VO1_4 VO1_4.junk arg5.view (harg5.unread xo4) y _ (cover1_B_4 c i arg1 harg1 arg2 harg2 arg3 harg3 arg4 harg4 arg5 harg5 hc0 x0 x1 x2 x3 xo4 y)]
  unfold kernelRun1_B
  dsimp only
  simp only [View.readAt_eq_ld, harg1.read_unread, harg2.read_unread, harg3.read_unread, View.ld_unit_zero (S := S320x1) hz2]
  rw [← st_eq_gath c i arg1 harg1 arg2 harg2 arg3 harg3 arg4 harg4 arg5 harg5 x0 x3 hr]
  exact scatter_final c i arg1 harg1 arg2 harg2 arg3 harg3 arg4 harg4 arg5 harg5 x1 x2 _ (harg5.unread xo4) xo4 (harg5.read_unread xo4) y

/-- THE FIRST POINT: the body zeroes the output and then leaves, at y, zero plus the block's contribution. -/
theorem out_A (hc0 : cond1_0 i) (x0 x1 : Vec Ideal S320x1 .i32) (x2 : Vec Ideal S320x1 .f32) (x3 : Vec Ideal S100000x64 .bf16)
    (hr : ∀ e : Fin 320, 0 ≤ (x0 (ix2 e (0 : Fin 1))).toInt ∧ (x0 (ix2 e (0 : Fin 1))).toInt < 100000) (y : S100000x64.Idx) :
    out1_A_4 (F := Ideal) c i arg1 harg1 arg2 harg2 arg3 harg3 arg4 harg4 arg5 harg5 hc0 x0 x1 x2 x3 y = 0 + contrib x1 x2 (gath x0 x3) y := by
  unfold out1_A_4
  rw [View.read_writes_apply_eq VO1_4 VO1_4.junk arg5.view arg5.view.junk y _ (cover1_A_4 c i arg1 harg1 arg2 harg2 arg3 harg3 arg4 harg4 arg5 harg5 hc0 x0 x1 x2 x3 y)]
  unfold kernelRun1_A
  dsimp only
  rw [View.writes_append]
  simp only [View.readAt_eq_ld, harg1.read_unread, harg2.read_unread, harg3.read_unread, View.ld_unit_zero (S := S320x1) hz2]
  rw [← st_eq_gath c i arg1 harg1 arg2 harg2 arg3 harg3 arg4 harg4 arg5 harg5 x0 x3 hr]
  refine (scatter_final c i arg1 harg1 arg2 harg2 arg3 harg3 arg4 harg4 arg5 harg5 x1 x2 _ _ _ rfl y).trans ?_
  congr 1
  sl_unfold_words
  rw [View.read_writes_junk_eq_canon, View.canon_unit_zero hz2]
  unfold k1_pay1
  exact Ideal.ofBits_zero_f32

end Loops

end Cert.KernelIdeal.Value1

end
-- ==== Proof.Region1.lean ====
import proofs.«406246_j3513283248909_1_alg».proof.Proof.Region1Loops

/-!
# The second region: the aggregate

The second region runs over 3750 blocks of 320 edges with the projected table and the output resident whole. Its first
point zeroes the output; every point adds its block's contribution to what the point before left; the output is
written back once, after the last point. So the output array ends at the sum over all blocks of their contributions,
which at (n, o) is the sum, over the edges whose destination is n, of the projected row of the edge's source at o
times the edge's weight.
-/

set_option maxRecDepth 16384

noncomputable section

open scoped BigOperators

namespace Cert.KernelIdeal.Value1

open Idealize.ShloMosaic Idealize.ShloMosaic.TcCoe Idealize.SL.Sem Idealize.ShloMosaic.ValueIdx
open Idealize.ShloMosaic.StableHlo.Predicate (ixP)
open Idealize.ShloMosaic.Pipeline (Dat)
open Cert.KernelIdeal Cert.KernelIdeal.Gen
open Cert.KernelIdeal.Pay (ind nodeWord)
open Idealize.ShloMosaic.Tactic

section Region

variable (V : (c : Dev nD) → (b : Ref sig .tc) → Buf (Elt Ideal) ((c : Thread nD τ).loc b))

/-- The four input blocks at a point, by their literal types: the source, destination and weight columns' 320 rows,
    and the projected table (resident whole). -/
abbrev sblk (c : Dev nD) (t : Fin cfg1.N) : Vec Ideal S320x1 .i32 := iblk1 V c 0 t
abbrev dblk (c : Dev nD) (t : Fin cfg1.N) : Vec Ideal S320x1 .i32 := iblk1 V c 1 t
abbrev wblk (c : Dev nD) (t : Fin cfg1.N) : Vec Ideal S320x1 .f32 := iblk1 V c 2 t
abbrev hblk (c : Dev nD) (t : Fin cfg1.N) : Vec Ideal S100000x64 .bf16 := iblk1 V c 3 t

/-- What the block of edges at point t adds at y. -/
def cAt (c : Dev nD) (t : Fin cfg1.N) (y : S100000x64.Idx) : EReal :=
  contrib (dblk V c t) (wblk V c t) (gath (sblk V c t) (hblk V c t)) y

/-- The same on all naturals, zero past the grid. -/
def cN (c : Dev nD) (y : S100000x64.Idx) (t : ℕ) : EReal := if ht : t < cfg1.N then cAt V c ⟨t, ht⟩ y else 0

/-- THE RUNNING SUM. After point n the output's buffer holds, at y, zero plus the contributions of the blocks of
    points 0 to n: by induction on the point, the first point zeroing the buffer, every later one adding to what the
    point before left. -/
theorem outsAt_eq (c : Dev nD)
    (hr : ∀ (t : Fin cfg1.N) (e : Fin 320), 0 ≤ (sblk V c t (ix2 e (0 : Fin 1))).toInt ∧ (sblk V c t (ix2 e (0 : Fin 1))).toInt < 100000) :
    ∀ (n : ℕ) (h : n < cfg1.N) (y : S100000x64.Idx), outsAt1 V c n h y = 0 + ∑ t ∈ Finset.range (n + 1), cN V c y t
  | 0, h, y => by
    rw [outsAt1_A V c ⟨0, h⟩ rfl]
    refine (out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      (ms1_3 ⟨0, h⟩) (hs1_3 ⟨0, h⟩) (ms1_4 ⟨0, h⟩) (hs1_4 ⟨0, h⟩) _ (sblk V c ⟨0, h⟩) (dblk V c ⟨0, h⟩) (wblk V c ⟨0, h⟩) (hblk V c ⟨0, h⟩)
      (hr ⟨0, h⟩) y).trans ?_
    rw [Finset.sum_range_one]
    unfold cN
    rw [dif_pos h]
    rfl
  | n + 1, h, y => by
    have hN : cfg1.N = 3750 := N_1
    have hB : ¬(⟨n + 1, h⟩ : Fin cfg1.N).val % 3750 = 0 := by dsimp only; omega
    rw [outsAt1_B V c ⟨n + 1, h⟩ hB]
    refine (out_B c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) _
      (sblk V c ⟨n + 1, h⟩) (dblk V c ⟨n + 1, h⟩) (wblk V c ⟨n + 1, h⟩) (hblk V c ⟨n + 1, h⟩) _ (hr ⟨n + 1, h⟩) y).trans ?_
    show outsAt1 V c n _ y + _ = _
    rw [outsAt_eq c hr n _ y, Finset.sum_range_succ _ (n + 1), add_assoc]
    congr 2
    unfold cN
    rw [dif_pos h]
    rfl

/-- The output window's block index never moves; the table window's neither. -/
theorem idx4 : ∀ t : Fin cfg1.N, win1_4.index t 0 = 0 ∧ win1_4.index t 1 = 0 :=
  (by decide +kernel : ∀ t : Fin grid1.N, win1_4.index t 0 = 0 ∧ win1_4.index t 1 = 0)
theorem idx3 : ∀ t : Fin cfg1.N, win1_3.index t 0 = 0 ∧ win1_3.index t 1 = 0 :=
  (by decide +kernel : ∀ t : Fin grid1.N, win1_3.index t 0 = 0 ∧ win1_3.index t 1 = 0)
/-- The three column windows step one block of 320 rows per point. -/
theorem idx0 : ∀ t : Fin cfg1.N, win1_0.index t 0 = t.val ∧ win1_0.index t 1 = 0 :=
  (by decide +kernel : ∀ t : Fin grid1.N, win1_0.index t 0 = t.val ∧ win1_0.index t 1 = 0)
theorem idx1 : ∀ t : Fin cfg1.N, win1_1.index t 0 = t.val ∧ win1_1.index t 1 = 0 :=
  (by decide +kernel : ∀ t : Fin grid1.N, win1_1.index t 0 = t.val ∧ win1_1.index t 1 = 0)
theorem idx2 : ∀ t : Fin cfg1.N, win1_2.index t 0 = t.val ∧ win1_2.index t 1 = 0 :=
  (by decide +kernel : ∀ t : Fin grid1.N, win1_2.index t 0 = t.val ∧ win1_2.index t 1 = 0)

theorem last_lt : 3749 < cfg1.N := by rw [show cfg1.N = 3750 from N_1]; decide

/-- The one write-back, at the last point, writes the running sum after that point: the block is the whole array. -/
theorem flushed_eq (c : Dev nD) (t : Fin cfg1.N) (hf : (cfg1.win 4).flush t = true) :
    (dat1 V c).flushed 4 t = ((cfg1.win 4).blk t).view.read (Elt Ideal) (outsAt1 V c 3749 last_lt) := by
  have hN : cfg1.N = 3750 := N_1
  have h3 : t.val = 3749 := by have := (flush1_4 t).mp hf; have := t.isLt; omega
  have e : outsAt1 V c 3749 last_lt = outsAt1 V c t.val t.isLt := by
    obtain ⟨n, hn⟩ := t
    dsimp only at h3
    subst h3
    rfl
  rw [e]
  show (cfg1.win 4).cut (grid1.coords t) ((dat1 V c).after 4 t) = _
  rw [after1_4]
  have hz' : (fun a => win1_4.index t a * main_v6.ty.shape.size a) = fun _ => 0 := funext fun a => by
    have hi := idx4 t
    match a with
    | ⟨0, _⟩ => show win1_4.index t 0 * _ = 0; rw [hi.1, Nat.zero_mul]
    | ⟨1, _⟩ => show win1_4.index t 1 * _ = 0; rw [hi.2, Nat.zero_mul]
  exact (Memref.read_access_unit_zero (Elt Ideal) main_v6 hz' (fun a => by rw [congrFun hz' a]; simp) (outsAt1 V c t.val t.isLt)).symm

/-- So the output array ends holding the running sum after the last point. -/
theorem xsize4 : ∀ t : Fin cfg1.N, win1_4.xsize (grid1.coords t) 0 = 100000 ∧ win1_4.xsize (grid1.coords t) 1 = 64 :=
  (by decide +kernel : ∀ t : Fin grid1.N, win1_4.xsize (grid1.coords t) 0 = 100000 ∧ win1_4.xsize (grid1.coords t) 1 = 64)

theorem final_arr (c : Dev nD) : (dat1 V c).arrAt 4 cfg1.N = outsAt1 V c 3749 last_lt :=
  (dat1 V c).arrAt_eq_of_cover 4 (outsAt1 V c 3749 last_lt) (flushed_eq V c) fun i =>
    ⟨⟨3749, last_lt⟩, (flush1_4 ⟨3749, last_lt⟩).mpr rfl, by
      show i ∈ ((View.whole main_v6).slice (win1_4.rect ⟨3749, last_lt⟩)).set
      rw [View.set_slice_whole, Rect.mem_set_unit]
      intro a
      have hi := idx4 ⟨3749, last_lt⟩
      have hx := xsize4 ⟨3749, last_lt⟩
      have h0 : (i 0 : Nat) < 100000 := (i 0).isLt
      have h1 : (i 1 : Nat) < 64 := (i 1).isLt
      match a with
      | ⟨0, _⟩ =>
        show win1_4.index ⟨3749, last_lt⟩ 0 * win1_4.size 0 ≤ (i 0 : Nat)
          ∧ (i 0 : Nat) < win1_4.index ⟨3749, last_lt⟩ 0 * win1_4.size 0 + win1_4.xsize (grid1.coords ⟨3749, last_lt⟩) 0
        rw [hi.1, hx.1, Nat.zero_mul]; omega
      | ⟨1, _⟩ =>
        show win1_4.index ⟨3749, last_lt⟩ 1 * win1_4.size 1 ≤ (i 1 : Nat)
          ∧ (i 1 : Nat) < win1_4.index ⟨3749, last_lt⟩ 1 * win1_4.size 1 + win1_4.xsize (grid1.coords ⟨3749, last_lt⟩) 1
        rw [hi.2, hx.2, Nat.zero_mul]; omega⟩

/-- Where row e of a column window's block at point t sits in the column: row 320 t + e. -/
theorem col0_block_at (t : Fin cfg1.N) (e : Fin 320) (u : Fin 1) (n : Fin 1200000) (hn : n.val = 320 * t.val + e.val) :
    (((cfg1.win 0).blk t).view.emb (ix2 e u) : S1200000x1.Idx) = ixP n := by
  obtain ⟨e0, e1⟩ := idx0 t
  have hu : u.val = 0 := by omega
  funext a; apply Fin.ext
  match a with
  | ⟨0, _⟩ => show win1_0.index t (0 : Fin 2) * 320 + 1 * e.val = n.val; omega
  | ⟨1, _⟩ => show win1_0.index t (1 : Fin 2) * 1 + 1 * u.val = 0; omega
theorem col1_block_at (t : Fin cfg1.N) (e : Fin 320) (u : Fin 1) (n : Fin 1200000) (hn : n.val = 320 * t.val + e.val) :
    (((cfg1.win 1).blk t).view.emb (ix2 e u) : S1200000x1.Idx) = ixP n := by
  obtain ⟨e0, e1⟩ := idx1 t
  have hu : u.val = 0 := by omega
  funext a; apply Fin.ext
  match a with
  | ⟨0, _⟩ => show win1_1.index t (0 : Fin 2) * 320 + 1 * e.val = n.val; omega
  | ⟨1, _⟩ => show win1_1.index t (1 : Fin 2) * 1 + 1 * u.val = 0; omega
theorem col2_block_at (t : Fin cfg1.N) (e : Fin 320) (u : Fin 1) (n : Fin 1200000) (hn : n.val = 320 * t.val + e.val) :
    (((cfg1.win 2).blk t).view.emb (ix2 e u) : S1200000x1.Idx) = ixP n := by
  obtain ⟨e0, e1⟩ := idx2 t
  have hu : u.val = 0 := by omega
  funext a; apply Fin.ext
  match a with
  | ⟨0, _⟩ => show win1_2.index t (0 : Fin 2) * 320 + 1 * e.val = n.val; omega
  | ⟨1, _⟩ => show win1_2.index t (1 : Fin 2) * 1 + 1 * u.val = 0; omega
/-- The table window's block is the whole table. -/
theorem tbl_block_at (t : Fin cfg1.N) (y : S100000x64.Idx) :
    (((cfg1.win 3).blk t).view.emb y : S100000x64.Idx) = y := by
  obtain ⟨e0, e1⟩ := idx3 t
  funext a; apply Fin.ext
  match a with
  | ⟨0, _⟩ => show win1_3.index t (0 : Fin 2) * 100000 + 1 * (y 0).val = (y 0).val; omega
  | ⟨1, _⟩ => show win1_3.index t (1 : Fin 2) * 64 + 1 * (y 1).val = (y 1).val; omega

/-- The edge number of row e of the block at point t. -/
abbrev edgeAt (t : Fin cfg1.N) (e : Fin 320) : Fin 1200000 :=
  ⟨320 * t.val + e.val, by have := Nat.lt_of_lt_of_eq t.isLt (show cfg1.N = 3750 from N_1); have := e.isLt; omega⟩

theorem sblk_apply (c : Dev nD) (t : Fin cfg1.N) (e : Fin 320) :
    sblk V c t (ix2 e (0 : Fin 1)) = (V c main_v3 : Cert.Agg.SC.Idx → BitVec 32) (ixP (edgeAt t e)) := by
  show (V c main_v3 : S1200000x1.Idx → BitVec 32) (((cfg1.win 0).blk t).view.emb (ix2 e (0 : Fin 1))) = _
  rw [col0_block_at t e 0 (edgeAt t e) rfl]
theorem dblk_apply (c : Dev nD) (t : Fin cfg1.N) (e : Fin 320) :
    dblk V c t (ix2 e (0 : Fin 1)) = (V c main_v4 : Cert.Agg.SC.Idx → BitVec 32) (ixP (edgeAt t e)) := by
  show (V c main_v4 : S1200000x1.Idx → BitVec 32) (((cfg1.win 1).blk t).view.emb (ix2 e (0 : Fin 1))) = _
  rw [col1_block_at t e 0 (edgeAt t e) rfl]
theorem wblk_apply (c : Dev nD) (t : Fin cfg1.N) (e : Fin 320) :
    wblk V c t (ix2 e (0 : Fin 1)) = (V c main_v5 : Cert.Agg.SC.Idx → EReal) (ixP (edgeAt t e)) := by
  show (V c main_v5 : S1200000x1.Idx → EReal) (((cfg1.win 2).blk t).view.emb (ix2 e (0 : Fin 1))) = _
  rw [col2_block_at t e 0 (edgeAt t e) rfl]
theorem hblk_apply (c : Dev nD) (t : Fin cfg1.N) (y : S100000x64.Idx) :
    hblk V c t y = (V c main_v2 : Cert.Agg.SX.Idx → EReal) y := by
  show (V c main_v2 : S100000x64.Idx → EReal) (((cfg1.win 3).blk t).view.emb y) = _
  rw [tbl_block_at t y]

/-- The gathered row of edge e of the block at point t, at o: the table's row addressed by the edge's source index. -/
theorem gath_apply (c : Dev nD) (t : Fin cfg1.N) (e : Fin 320) (o : Fin 64) :
    gath (sblk V c t) (hblk V c t) (ix2 e o)
      = (V c main_v2 : Cert.Agg.SX.Idx → EReal)
          (ix2 (Cert.Agg.rowOf ((V c main_v3 : Cert.Agg.SC.Idx → BitVec 32) (ixP (edgeAt t e)))) o) := by
  show hblk V c t (ix2 (Cert.Agg.rowOf (sblk V c t (ix2 e (0 : Fin 1)))) o) = _
  rw [hblk_apply, sblk_apply]

/-- What the second region's pipeline leaves in its output array, from the contents it is entered with: the aggregate
    of the projected table (its fourth operand) over the source, destination and weight columns, when every source
    index is a node. The array is the running sum after the last point; the running sum is zero plus the blocks'
    contributions; a block's contribution at (n, o) is the sum over its edges of the indicator of "n is the
    destination" times the message; and over all blocks that is the sum over the edges whose destination is n. -/
theorem region1_value (c : Dev nD)
    (hsrc : ∀ e : Fin 1200000, 0 ≤ ((V c main_v3 : Cert.Agg.SC.Idx → BitVec 32) (ixP e)).toInt
      ∧ ((V c main_v3 : Cert.Agg.SC.Idx → BitVec 32) (ixP e)).toInt < 100000) :
    (dat1 V c).arrAt 4 cfg1.N = Cert.Agg.aggColArr (V c main_v2) (V c main_v3) (V c main_v4) (V c main_v5) := by
  have hN : cfg1.N = 3750 := N_1
  have hr : ∀ (t : Fin cfg1.N) (e : Fin 320), 0 ≤ (sblk V c t (ix2 e (0 : Fin 1))).toInt
      ∧ (sblk V c t (ix2 e (0 : Fin 1))).toInt < 100000 := fun t e => by
    rw [sblk_apply]; exact hsrc _
  rw [final_arr V c]
  funext y
  obtain ⟨n, o, rfl⟩ : ∃ (n : Fin 100000) (o : Fin 64), y = ix2 n o := ⟨y 0, y 1, eq_ix2 y⟩
  rw [outsAt_eq V c hr 3749 last_lt (ix2 n o), Cert.Agg.aggColArr_apply, zero_add, ← Cert.Agg.Math.agg_blocks,
    ← Cert.Agg.Math.sum_range_points]
  refine Finset.sum_congr rfl fun t ht => ?_
  have ht' : t < 3750 := Finset.mem_range.mp ht
  have htN : t < cfg1.N := by omega
  unfold cN
  rw [dif_pos htN, dif_pos ht']
  unfold cAt contrib
  refine Finset.sum_congr rfl fun e _ => ?_
  rw [dblk_apply, wblk_apply]
  show ind (BitVec.ofNat 32 n.val) _ * (gath (sblk V c ⟨t, htN⟩) (hblk V c ⟨t, htN⟩) (ix2 e o) * _) = _
  rw [gath_apply V c ⟨t, htN⟩ e o]

end Region

end Cert.KernelIdeal.Value1

end
-- ==== Proof.Glue.lean ====
import proofs.«406246_j3513283248909_1_alg».proof.Proof.KernelRun
import proofs.«406246_j3513283248909_1_alg».proof.Proof.Region0
import proofs.«406246_j3513283248909_1_alg».proof.Proof.Region1
import proofs.«406246_j3513283248909_1_alg».proof.Proof.Spec
import Idealize.ShloMosaic.Lib.Pipeline.Value
import Idealize.ShloMosaic.Lib.ValueLayout
import Idealize.ShloMosaic.Lib.StableHlo.Run

/-!
# The kernel's result from its arguments

Between the two regions the host re-lays the three per-edge arrays as columns; the projected table goes from the first
region's output to the second region's fourth operand untouched. So the second region is entered with the projected
table of (x, W, b) and the columns of (src, dst, w), and its output, the program's result, is the aggregate of the
six arguments.
-/

set_option maxRecDepth 16384

noncomputable section

open scoped BigOperators

namespace Cert.KernelIdeal.Glue

open Idealize.ShloMosaic Idealize.ShloMosaic.TcCoe Idealize.SL.Sem Idealize.ShloMosaic.ValueIdx
open Idealize.ShloMosaic.StableHlo.Predicate (ixP)
open Idealize.ShloMosaic.Pipeline (Dat)
open Cert.KernelIdeal Cert.KernelIdeal.Gen

/-- A flat array of n entries re-laid as an [n, 1] column reads, at row i, the array's entry i. -/
theorem shapeCast_a_a1_apply {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ixP i) = x (ix1 i) :=
  shapeCast_apply x h _ _ (by
    rw [Shape.rowMajor_val_two, Shape.rowMajor_val_one]
    show i.val = i.val * 1 + 0
    omega)

variable (m : (ℓ : Loc nD τ sig) → Buf (Elt Ideal) ℓ) (ρ : Dev nD → PrngReg)

/-- The three per-edge arguments reach the second stretch of host operations as launched: the first region does not
    write them and neither does the first stretch. -/
theorem arg1_mid (c : Dev nD) : W2 m ρ c (Proc.devRef .tc main_arg1) = (m ((c.tc : Thread nD τ).loc main_arg1)) := by
  rw [W2_of_ne m ρ c main_arg1 (by decide)]
  show StableHlo.after hostOps0 (W0 m ρ c) (Proc.devRef .tc main_arg1) = _
  after_results
theorem arg2_mid (c : Dev nD) : W2 m ρ c (Proc.devRef .tc main_arg2) = (m ((c.tc : Thread nD τ).loc main_arg2)) := by
  rw [W2_of_ne m ρ c main_arg2 (by decide)]
  show StableHlo.after hostOps0 (W0 m ρ c) (Proc.devRef .tc main_arg2) = _
  after_results
theorem arg3_mid (c : Dev nD) : W2 m ρ c (Proc.devRef .tc main_arg3) = (m ((c.tc : Thread nD τ).loc main_arg3)) := by
  rw [W2_of_ne m ρ c main_arg3 (by decide)]
  show StableHlo.after hostOps0 (W0 m ρ c) (Proc.devRef .tc main_arg3) = _
  after_results

/-- The second region's source column is the source array re-laid. -/
theorem entry_src (c : Dev nD) :
    (V3 m ρ c main_v3 : S1200000x1.Idx → BitVec 32)
      = shapeCast S1200000x1 ((m ((c.tc : Thread nD τ).loc main_arg1)) : S1200000.Idx → BitVec 32) shapeCasts_S1200000_S1200000x1 := by
  show StableHlo.after hostOps1 (W2 m ρ c) (Proc.devRef .tc main_v3) = _
  after_results
  rw [arg1_mid]
  rfl
/-- Its destination column is the destination array re-laid. -/
theorem entry_dst (c : Dev nD) :
    (V3 m ρ c main_v4 : S1200000x1.Idx → BitVec 32)
      = shapeCast S1200000x1 ((m ((c.tc : Thread nD τ).loc main_arg2)) : S1200000.Idx → BitVec 32) shapeCasts_S1200000_S1200000x1 := by
  show StableHlo.after hostOps1 (W2 m ρ c) (Proc.devRef .tc main_v4) = _
  after_results
  rw [arg2_mid]
  rfl
/-- Its weight column is the weight array re-laid. -/
theorem entry_w (c : Dev nD) :
    (V3 m ρ c main_v5 : S1200000x1.Idx → EReal)
      = shapeCast S1200000x1 ((m ((c.tc : Thread nD τ).loc main_arg3)) : S1200000.Idx → EReal) shapeCasts_S1200000_S1200000x1 := by
  show StableHlo.after hostOps1 (W2 m ρ c) (Proc.devRef .tc main_v5) = _
  after_results
  rw [arg3_mid]
  rfl
/-- Its table is what the first region left in its output array. -/
theorem entry_tbl (c : Dev nD) : V3 m ρ c main_v2 = (dat0 (V1 m ρ) c).arrAt 3 cfg0.N := by
  show StableHlo.after hostOps1 (W2 m ρ c) (Proc.devRef .tc main_v2) = _
  after_results
  exact W2_arr m ρ c 3

/-- THE KERNEL'S RESULT: what the second region's pipeline leaves in its output array is the aggregate of the six
    arguments, when every source index is a node. -/
theorem kernel_value (c : Dev nD)
    (hsrc : ∀ e : Fin 1200000, 0 ≤ (((m ((c.tc : Thread nD τ).loc main_arg1)) : S1200000.Idx → BitVec 32) (ix1 e)).toInt
      ∧ (((m ((c.tc : Thread nD τ).loc main_arg1)) : S1200000.Idx → BitVec 32) (ix1 e)).toInt < 100000) :
    (dat1 (V3 m ρ) c).arrAt 4 cfg1.N
      = Cert.Agg.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hs : ∀ e : Fin 1200000, (V3 m ρ c main_v3 : S1200000x1.Idx → BitVec 32) (ixP e) = ((m ((c.tc : Thread nD τ).loc main_arg1)) : S1200000.Idx → BitVec 32) (ix1 e) :=
    fun e => by rw [entry_src]; exact shapeCast_a_a1_apply _ _ e
  have hd : ∀ e : Fin 1200000, (V3 m ρ c main_v4 : S1200000x1.Idx → BitVec 32) (ixP e) = ((m ((c.tc : Thread nD τ).loc main_arg2)) : S1200000.Idx → BitVec 32) (ix1 e) :=
    fun e => by rw [entry_dst]; exact shapeCast_a_a1_apply _ _ e
  have hw : ∀ e : Fin 1200000, (V3 m ρ c main_v5 : S1200000x1.Idx → EReal) (ixP e) = ((m ((c.tc : Thread nD τ).loc main_arg3)) : S1200000.Idx → EReal) (ix1 e) :=
    fun e => by rw [entry_w]; exact shapeCast_a_a1_apply _ _ e
  rw [Cert.KernelIdeal.Value1.region1_value (V3 m ρ) c (fun e => by rw [hs e]; exact hsrc e)]
  exact Cert.Agg.aggColArr_eq_G _ _ _ _ _ _ _ _ _ _
    ((entry_tbl m ρ c).trans (Cert.KernelIdeal.Value0.region0_value m ρ c)) hs hd hw

end Cert.KernelIdeal.Glue

end
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

/-!
# Row-wise scatter-add and row gather, read at an index

Two index-level reads of the host operations on a rank-2 table whose ROWS are addressed by an [E × 1] column of
start indices.

* A scatter with an additive body whose updates are whole rows: update row e is added into the operand row named
  by the e-th start index, read as a signed integer; a row whose start index is negative or past the last row is
  dropped. At (n, k) the result is the operand plus the sum, over the update rows whose start index is n, of
  their k-th entry.
* A gather of whole rows: result row e is the operand row named by the e-th start index, read signed and clamped
  into the table.
-/

noncomputable section

open scoped BigOperators

namespace Cert.Segment

open Idealize.ShloMosaic Idealize.ShloMosaic.ValueIdx
open Idealize.ShloMosaic.StableHlo.Predicate (ixP)

/-! ## The scatter: where update (e, k') lands -/

section Scatter

variable {N C E w : Nat} (d : ScatterDims ⟨2, ![N, C]⟩ ⟨2, ![E, 1]⟩ ⟨2, ![E, C]⟩)

/-- A coordinate of a rank-2 index on an axis known to be the first. -/
private theorem ix2_val_of_eq_zero {n0 n1 : Nat} (a : Fin n0) (b : Fin n1) (X : Fin 2) (hX : X = 0) :
    ((ix2 a b) X).val = a.val := by
  subst hX; rfl

/-- A coordinate of a rank-2 index on an axis known to be the second. -/
private theorem ix2_val_of_eq_one {n0 n1 : Nat} (a : Fin n0) (b : Fin n1) (X : Fin 2) (hX : X = 1) :
    ((ix2 a b) X).val = b.val := by
  subst hX; rfl

/-- An axis of a rank-2 shape that is not the second is the first. -/
private theorem fin2_eq_zero {X : Fin 2} (h : X ≠ 1) : X = 0 :=
  match X, h with
  | ⟨0, _⟩, _ => rfl
  | ⟨1, _⟩, h => absurd rfl h

/-- With the window on the updates' axis 1, the only update scatter axis is axis 0. -/
private theorem uScatter_eq_zero (huw : d.updateWindowDims = [1]) (X : Fin 2) (hX : X ∈ d.uScatter) : X = 0 := by
  have h2 := (List.mem_filter.1 hX).2
  rw [huw] at h2
  exact fin2_eq_zero (by simpa using h2)

/-- The start-indices index update (e, k') reads its one start component at: row e of the column. -/
theorem siIdx_rows (hsd : d.scatterDimsToOperandDims = [0]) (huw : d.updateWindowDims = [1]) (hivd : d.indexVectorDim = 1)
    (e : Fin E) (k' : Fin C) (c : Fin d.scatterDimsToOperandDims.length) :
    d.siIdx (ix2 e k') c = ixP e := by
  funext b
  match b with
  | ⟨0, _⟩ =>
    -- the one update scatter axis is axis 0 of the updates (axis 1 is the window axis); it reads the column's axis 0
    unfold ScatterDims.siIdx
    rw [dif_neg (by rw [hivd]; simp)]
    unfold ScatterDims.siCoord
    apply Fin.ext
    simp only [Fin.val_cast]
    refine ix2_val_of_eq_zero e k' _ ?_
    exact uScatter_eq_zero d huw _ (List.getElem_mem _)
  | ⟨1, _⟩ =>
    unfold ScatterDims.siIdx
    rw [dif_pos (by rw [hivd])]
    apply Fin.ext
    show c.val = 0
    have hl : d.scatterDimsToOperandDims.length = 1 := by rw [hsd]; rfl
    have := c.isLt
    omega

/-- On the operand's axis 0 the window of update (e, k') starts at the start index of row e, read signed … -/
theorem start_zero (hsd : d.scatterDimsToOperandDims = [0]) (huw : d.updateWindowDims = [1]) (hivd : d.indexVectorDim = 1)
    (idx : IVec ⟨2, ![E, 1]⟩ w) (e : Fin E) (k' : Fin C) :
    d.start (ix2 e k') idx (0 : Fin 2) = (idx (ixP e)).toInt := by
  unfold ScatterDims.start
  rw [dif_pos (show (0 : Fin 2) ∈ d.scatterDimsToOperandDims by rw [hsd]; exact List.mem_singleton.mpr rfl),
    siIdx_rows d hsd huw hivd]

/-- … and on axis 1, which the start index does not name, at 0. -/
theorem start_one (hsd : d.scatterDimsToOperandDims = [0]) (idx : IVec ⟨2, ![E, 1]⟩ w) (e : Fin E) (k' : Fin C) :
    d.start (ix2 e k') idx (1 : Fin 2) = 0 := by
  unfold ScatterDims.start
  rw [dif_neg (by rw [hsd]; simp)]

/-- The operand's axis 0 is inserted: the window coordinate there is 0 … -/
theorem window_zero (hiw : d.insertedWindowDims = [0]) (e : Fin E) (k' : Fin C) :
    d.window (ix2 e k') (0 : Fin 2) = 0 := by
  unfold ScatterDims.window
  rw [dif_neg]
  intro h
  have h2 := (List.mem_filter.1 h).2
  rw [hiw] at h2
  simp at h2

/-- … and on axis 1, the one kept axis, it is the update's column k'. -/
theorem window_one (huw : d.updateWindowDims = [1]) (hiw : d.insertedWindowDims = [0]) (e : Fin E) (k' : Fin C) :
    d.window (ix2 e k') (1 : Fin 2) = k'.val := by
  unfold ScatterDims.window
  have hmem : (1 : Fin 2) ∈ d.sKept := List.mem_filter.2 ⟨List.mem_finRange _, by rw [hiw]; simp⟩
  rw [dif_pos hmem]
  refine ix2_val_of_eq_one e k' _ ?_
  have hall : ∀ X ∈ d.updateWindowDims, X = 1 := by
    intro X hX; rw [huw] at hX; exact List.mem_singleton.1 hX
  exact hall _ (List.getElem_mem _)

/-- WHERE AN UPDATE LANDS. Update (e, k') lands on (n, k) exactly when the start index of row e, read signed, is n and
    k' = k; with a start index that is negative or at least N it lands nowhere. -/
theorem resultIdx?_rows (huw : d.updateWindowDims = [1]) (hiw : d.insertedWindowDims = [0])
    (hsd : d.scatterDimsToOperandDims = [0]) (hivd : d.indexVectorDim = 1)
    (idx : IVec ⟨2, ![E, 1]⟩ w) (e : Fin E) (k' : Fin C) (n : Fin N) (k : Fin C) :
    d.resultIdx? (ix2 e k') idx = some (ix2 n k) ↔ (idx (ixP e)).toInt = (n.val : ℤ) ∧ k' = k := by
  have hs0 := start_zero d hsd huw hivd idx e k'
  have hs1 := start_one d hsd idx e k'
  have hw0 := window_zero d hiw e k'
  have hw1 := window_one d huw hiw e k'
  have hn := n.isLt
  have hk' := k'.isLt
  unfold ScatterDims.resultIdx?
  constructor
  · intro h
    split at h
    · next hc =>
      have h' := Option.some.inj h
      have h0 : (d.start (ix2 e k') idx (0 : Fin 2) + (d.window (ix2 e k') (0 : Fin 2) : ℤ)).toNat = n.val :=
        congrArg (fun f : (⟨2, ![N, C]⟩ : Shape).Idx => (f (0 : Fin 2)).val) h'
      have h1 : (d.start (ix2 e k') idx (1 : Fin 2) + (d.window (ix2 e k') (1 : Fin 2) : ℤ)).toNat = k.val :=
        congrArg (fun f : (⟨2, ![N, C]⟩ : Shape).Idx => (f (1 : Fin 2)).val) h'
      have hc0 := (hc (0 : Fin 2)).1
      rw [hs0, hw0] at h0 hc0
      rw [hs1, hw1] at h1
      exact ⟨by omega, Fin.ext (by omega)⟩
    · exact absurd h (by simp)
  · rintro ⟨h0, rfl⟩
    have hc : ∀ a, 0 ≤ d.start (ix2 e k') idx a + (d.window (ix2 e k') a : ℤ)
        ∧ d.start (ix2 e k') idx a + (d.window (ix2 e k') a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix2 e k') idx (0 : Fin 2) + (d.window (ix2 e k') (0 : Fin 2) : ℤ)).toNat = n.val
      rw [hs0, hw0]; omega
    · apply Fin.ext
      show (d.start (ix2 e k') idx (1 : Fin 2) + (d.window (ix2 e k') (1 : Fin 2) : ℤ)).toNat = k'.val
      rw [hs1, hw1]; omega

/-- THE SCATTER READ AT (n, k): the operand there plus the k-th entries of the update rows whose start index, read
    signed, is n. (The update indices landing on (n, k) are the (e, k) with start index n: one per such row e.) -/
theorem hostScatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  congr 1
  -- every update index is (e, k'); it is in the left sum exactly when its start index is n and k' = k
  have hrow : ∀ j : (⟨2, ![E, C]⟩ : Shape).Idx,
      d.resultIdx? j idx = some (ix2 n k) ↔ (idx (ixP (j 0))).toInt = (n.val : ℤ) ∧ j 1 = k := by
    intro j
    obtain ⟨a, b, rfl⟩ : ∃ a b, j = ix2 a b := ⟨_, _, eq_ix2 j⟩
    exact resultIdx?_rows d huw hiw hsd hivd idx a b n k
  refine Finset.sum_nbij' (fun j => j 0) (fun e => ix2 e k) ?_ ?_ ?_ ?_ ?_
  · intro j hj
    exact Finset.mem_filter.2 ⟨Finset.mem_univ _, ((hrow j).1 (Finset.mem_filter.1 hj).2).1⟩
  · intro e he
    exact Finset.mem_filter.2 ⟨Finset.mem_univ _, (hrow (ix2 e k)).2 ⟨(Finset.mem_filter.1 he).2, rfl⟩⟩
  · intro j hj
    have hk := ((hrow j).1 (Finset.mem_filter.1 hj).2).2
    obtain ⟨a, b, rfl⟩ : ∃ a b, j = ix2 a b := ⟨_, _, eq_ix2 j⟩
    have hb : b = k := hk
    subst hb; rfl
  · intro e _
    rfl
  · intro j hj
    have hk := ((hrow j).1 (Finset.mem_filter.1 hj).2).2
    obtain ⟨a, b, rfl⟩ : ∃ a b, j = ix2 a b := ⟨_, _, eq_ix2 j⟩
    have hb : b = k := hk
    subst hb; rfl

end Scatter

/-! ## The gather of rows -/

section Gather

variable {α : Type} {N C E w : Nat} (d : GatherDims ⟨2, ![N, C]⟩ ⟨2, ![E, 1]⟩ ⟨2, ![E, C]⟩)

/-- With the offset on the result's axis 1, the only batch axis of the result is axis 0. -/
private theorem batchDims_eq_zero (hoff : d.offsetDims = [1]) (X : Fin 2) (hX : X ∈ d.batchDims) : X = 0 := by
  have h2 := (List.mem_filter.1 hX).2
  rw [hoff] at h2
  exact fin2_eq_zero (by simpa using h2)

/-- The start-indices index result (e, k) reads its one start component at: row e of the column. -/
theorem gather_siIdx_rows (hoff : d.offsetDims = [1]) (hsim : d.startIndexMap = [0]) (hivd : d.indexVectorDim = 1)
    (e : Fin E) (k : Fin C) (c : Fin d.startIndexMap.length) :
    d.siIdx (ix2 e k) c = ixP e := by
  funext b
  match b with
  | ⟨0, _⟩ =>
    -- the result's one batch axis is its axis 0 (axis 1 is the offset axis); it reads the column's axis 0
    unfold GatherDims.siIdx
    rw [dif_neg (by rw [hivd]; simp)]
    unfold GatherDims.siCoord
    apply Fin.ext
    simp only [Fin.val_cast]
    exact ix2_val_of_eq_zero e k _ (batchDims_eq_zero d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

/-- THE GATHER READ AT (e, k): the operand's row named by the start index of e, read signed and clamped into
    [0, N − 1], at column k. (Axis 0 of the operand is collapsed and start-indexed, with slice size 1 there, so the
    row is the clamped start alone; axis 1 is not start-indexed, so the column is the result's offset coordinate.) -/
theorem gather_rows (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (k : Fin C) (hN : 0 < N) :
    Host.gather d x idx (ix2 e k) = x (ix2 ⟨min (idx (ixP e)).toInt.toNat (N - 1), by omega⟩ k) := by
  unfold Host.gather
  congr 1
  have hb : ∀ a : Fin 2, a ∉ d.operandBatchingDims := fun a => by rw [hob]; exact List.not_mem_nil
  refine funext (Fin.forall_fin_two.2 ⟨?_, ?_⟩)
  · -- the row
    apply Fin.ext
    show d.start (ix2 e k) idx (0 : Fin 2) + d.batchCoord (ix2 e k) (0 : Fin 2) + d.offCoord (ix2 e k) (0 : Fin 2)
      = min (idx (ixP e)).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows d hoff hsim hivd, hsl]
    rfl
  · -- the column
    apply Fin.ext
    show d.start (ix2 e k) idx (1 : Fin 2) + d.batchCoord (ix2 e k) (1 : Fin 2) + d.offCoord (ix2 e k) (1 : Fin 2) = k.val
    have hk1 : (1 : Fin 2) ∈ d.sKept := by rw [GatherDims.mem_sKept, hcoll, hob]; simp
    have hs1 : d.start (ix2 e k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix2_val_of_eq_one e k _ ?_
    have hall : ∀ X ∈ d.offsetDims, X = 1 := by
      intro X hX; rw [hoff] at hX; exact List.mem_singleton.1 hX
    exact hall _ (List.getElem_mem _)

end Gather

end Cert.Segment

end
-- ==== Proof.RefValue.lean ====
import proofs.«406246_j3513283248909_1_alg».proof.Proof.Gen.ReferenceIdeal.Read
import proofs.«406246_j3513283248909_1_alg».proof.Proof.LibSegment
import proofs.«406246_j3513283248909_1_alg».proof.Proof.Spec

/-!
# The reference computes the aggregate

The reference projects every node row (a contraction of x with W over the feature axis, plus the bias), gathers the
projected row of each edge's source, scales it by the edge's weight, and adds it into the row of the edge's
destination, starting from zeros. Read at (n, o) this is the sum over the edges with destination n of the projected
source row at o times the weight.
-/

noncomputable section

open scoped BigOperators

namespace Cert.Agg.Ref

open Idealize.ShloMosaic Idealize.ShloMosaic.ValueIdx
open Idealize.ShloMosaic.StableHlo.Predicate (ixP)
open Cert.ReferenceIdeal Cert.ReferenceIdeal.Gen

/-- The row-wise scatter with an additive body, at the reference's dimension numbers, read at (n, o): the operand
    there plus the o-th entries of the update rows whose start index, read signed, is n. -/
theorem scatter_read (opd : (⟨S100000x64, .f32⟩ : BufTy).Contents (Elt Ideal)) (idx : (⟨S1200000x1, .i32⟩ : BufTy).Contents (Elt Ideal))
    (upd : (⟨S1200000x64, .f32⟩ : BufTy).Contents (Elt Ideal)) (n : Fin 100000) (o : Fin 64) :
    Host.scatterAdd (F := Ideal) (φ := .f32) scatter_S100000x64_S1200000x1_S1200000x64_1_0_0_1 opd idx upd (ix2 n o)
      = opd (ix2 n o) + ∑ e ∈ Finset.univ.filter (fun e : Fin 1200000 => (idx (ixP e)).toInt = (n.val : ℤ)), upd (ix2 e o) := by
  unfold Host.scatterAdd
  rw [Ideal.hostScatterAdd_def]
  exact Cert.Segment.hostScatterAdd_rows (N := 100000) (C := 64) (E := 1200000) (w := 32)
    scatter_S100000x64_S1200000x1_S1200000x64_1_0_0_1 rfl rfl rfl rfl opd idx upd n o

/-- The row gather, at the reference's dimension numbers, read at (e, o): the table's row named by the e-th start
    index, read signed and clamped into the table, at column o. -/
theorem gather_read (tbl : (⟨S100000x64, .f32⟩ : BufTy).Contents (Elt Ideal)) (idx : (⟨S1200000x1, .i32⟩ : BufTy).Contents (Elt Ideal))
    (e : Fin 1200000) (o : Fin 64) :
    Host.gather gather_S100000x64_S1200000x1_S1200000x64_1_0_n_n_0_1_164 tbl idx (ix2 e o)
      = tbl (ix2 (rowOf (idx (ixP e))) o) :=
  Cert.Segment.gather_rows (N := 100000) (C := 64) (E := 1200000) (w := 32)
    gather_S100000x64_S1200000x1_S1200000x64_1_0_n_n_0_1_164 rfl rfl rfl rfl rfl tbl idx e o (by decide)

/-- The column of source indices the gather reads: under the range hypothesis the index is not negative, so the
    wrap-around select keeps it. -/
theorem src_col (src : (⟨S1200000, .i32⟩ : BufTy).Contents (Elt Ideal))
    (hsrc : ∀ e : Fin 1200000, 0 ≤ (src (ix1 e)).toInt ∧ (src (ix1 e)).toInt < 100000) (e : Fin 1200000) :
    Read.val_main_v9 (F := Ideal) src (ixP e) = src (ix1 e) := by
  have hi : Read.idx_main_v9 (ixP e) = ix1 e := funext fun a => by match a with | ⟨0, _⟩ => rfl
  rw [Read.val_main_v9_apply, hi, Read.val_main_v8_apply, Read.val_main_v5_apply, Read.val_main_v4_apply,
    Read.val_main_c_apply]
  have hc : IntOp.cmpi .slt (src (ix1 e)) 0#32 = 0#1 := by
    apply eq_zero_of_ne_one
    rw [IntOp.cmpi_slt]
    have h0 := (hsrc e).1
    have hz : (0#32 : BitVec 32).toInt = 0 := by decide
    omega
  rw [hc, select_zero]

/-- The column of destination indices is the flat array re-laid. -/
theorem dst_col (dst : (⟨S1200000, .i32⟩ : BufTy).Contents (Elt Ideal)) (e : Fin 1200000) :
    Read.val_main_v15 (F := Ideal) dst (ixP e) = dst (ix1 e) := by
  have hi : Read.idx_main_v15 (ixP e) = ix1 e := funext fun a => by match a with | ⟨0, _⟩ => rfl
  rw [Read.val_main_v15_apply, hi]

/-- The weights broadcast along the rows: at (e, o) the weight of edge e. -/
theorem w_bcast (w : (⟨S1200000, .f32⟩ : BufTy).Contents (Elt Ideal)) (e : Fin 1200000) (o : Fin 64) :
    Read.val_main_v12 (F := Ideal) w (ix2 e o) = w (ix1 e) := by
  have hi : Read.idx_main_v11 (Read.idx_main_v12 (ix2 e o)) = ix1 e := funext fun a => by match a with | ⟨0, _⟩ => rfl
  rw [Read.val_main_v12_apply, Read.val_main_v11_apply, hi]

/-- The projected table: at (r, o) row r of x against row o of W, plus the bias at o. -/
theorem proj_read (x : (⟨S100000x64, .f32⟩ : BufTy).Contents (Elt Ideal)) (W : (⟨S64x64, .f32⟩ : BufTy).Contents (Elt Ideal))
    (b : (⟨S64, .f32⟩ : BufTy).Contents (Elt Ideal)) (r : Fin 100000) (o : Fin 64) :
    Read.val_main_v3 (F := Ideal) x W b (ix2 r o) = proj x W b r o := by
  have hl : ∀ k : Fin 64, Read.lidx_main_v0 (ix2 r o) k = ix2 r k := fun k => funext fun a => by
    match a with | ⟨0, _⟩ => rfl | ⟨1, _⟩ => rfl
  have hr : ∀ k : Fin 64, Read.ridx_main_v0 (ix2 r o) k = ix2 o k := fun k => funext fun a => by
    match a with | ⟨0, _⟩ => rfl | ⟨1, _⟩ => rfl
  have hb : Read.idx_main_v1 (Read.idx_main_v2 (ix2 r o)) = ix1 o := funext fun a => by match a with | ⟨0, _⟩ => rfl
  rw [Read.val_main_v3_apply, Read.val_main_v0_apply, Read.val_main_v2_apply, Read.val_main_v1_apply, hb, Ideal.addf_def]
  unfold proj
  refine congrArg (· + b (ix1 o)) (Finset.sum_congr rfl fun k _ => ?_)
  rw [hl, hr]

/-- The update the scatter adds: at (e, o) the projected row of the source of e at o, times the weight of e. -/
theorem upd_read (x : (⟨S100000x64, .f32⟩ : BufTy).Contents (Elt Ideal)) (src : (⟨S1200000, .i32⟩ : BufTy).Contents (Elt Ideal))
    (w : (⟨S1200000, .f32⟩ : BufTy).Contents (Elt Ideal)) (W : (⟨S64x64, .f32⟩ : BufTy).Contents (Elt Ideal))
    (b : (⟨S64, .f32⟩ : BufTy).Contents (Elt Ideal))
    (hsrc : ∀ e : Fin 1200000, 0 ≤ (src (ix1 e)).toInt ∧ (src (ix1 e)).toInt < 100000) (e : Fin 1200000) (o : Fin 64) :
    Read.val_main_v13 (F := Ideal) x src w W b (ix2 e o) = proj x W b (rowOf (src (ix1 e))) o * w (ix1 e) := by
  rw [Read.val_main_v13_apply, Ideal.mulf_def, w_bcast]
  unfold Read.val_main_v10
  rw [gather_read, src_col src hsrc, proj_read]

/-- The reference's last stage, at the ideal instance, is the aggregate of its six arguments, when every source index
    is a node. -/
theorem ref_eq (x : (⟨S100000x64, .f32⟩ : BufTy).Contents (Elt Ideal)) (src dst : (⟨S1200000, .i32⟩ : BufTy).Contents (Elt Ideal))
    (w : (⟨S1200000, .f32⟩ : BufTy).Contents (Elt Ideal)) (W : (⟨S64x64, .f32⟩ : BufTy).Contents (Elt Ideal))
    (b : (⟨S64, .f32⟩ : BufTy).Contents (Elt Ideal))
    (hsrc : ∀ e : Fin 1200000, 0 ≤ (src (ix1 e)).toInt ∧ (src (ix1 e)).toInt < 100000) :
    Cert.ReferenceIdeal.Read.val_main_v16 (F := Ideal) x src dst w W b = Cert.Agg.G x src dst w W b := by
  funext i
  obtain ⟨n, o, rfl⟩ : ∃ (n : Fin 100000) (o : Fin 64), i = ix2 n o := ⟨i 0, i 1, eq_ix2 i⟩
  rw [G_apply]
  unfold Read.val_main_v16
  rw [scatter_read]
  unfold agg
  -- the operand is the zero table
  have h14 : Read.val_main_v14 (F := Ideal) (ix2 n o) = 0 := by
    rw [Read.val_main_v14_apply, Read.val_main_cst_apply, Ideal.ofBits_def, Ideal.ofBits_zero_f32]
  rw [h14, zero_add]
  -- the same edges are summed: the destination column is the flat array
  have hf : (Finset.univ.filter fun e : Fin 1200000 => (Read.val_main_v15 (F := Ideal) dst (ixP e)).toInt = (n.val : ℤ))
      = Finset.univ.filter fun e : Fin 1200000 => (dst (ix1 e)).toInt = (n.val : ℤ) :=
    Finset.filter_congr fun e _ => by rw [dst_col]
  rw [hf]
  exact Finset.sum_congr rfl fun e _ => upd_read x src w W b hsrc e o

end Cert.Agg.Ref

end
-- ==== Proof.PreDecode.lean ====
import proofs.«406246_j3513283248909_1_alg».proof.Defs
import proofs.«406246_j3513283248909_1_alg».proof.Proof.Gen.Pre_finite_inputs
import Idealize.ShloMosaic.Lib.ValueIdx
import Idealize.ShloMosaic.Lib.ReduceAll
import Idealize.ShloMosaic.Lib.StableHlo.Predicate

/-!
# What the precondition says about the source indices

The precondition is a conjunction of whole-array tests; its last conjunct says every source index, read as a signed
32-bit integer, is at least 0 and below 100000.
-/

noncomputable section

namespace Cert.Agg.Pre

open Idealize.ShloMosaic Idealize.ShloMosaic.ValueIdx

/-- Where the printed precondition is all ones, every source index is a node: in [0, 100000) read signed. -/
theorem src_range {F : FTy → Type} [FloatOps F] [Cert.Pre_finite_inputs.Facts]
    (x : FVec F Cert.Pre_finite_inputs.S100000x64 .f32) (src dst : IVec Cert.Pre_finite_inputs.S1200000 32)
    (w : FVec F Cert.Pre_finite_inputs.S1200000 .f32) (W : FVec F Cert.Pre_finite_inputs.S64x64 .f32)
    (b : FVec F Cert.Pre_finite_inputs.S64 .f32)
    (h : Cert.Pre_finite_inputs.fn (F := F) x src dst w W b = fun _ => 1#1) (e : Fin 1200000) :
    0 ≤ (src (ix1 e)).toInt ∧ (src (ix1 e)).toInt < 100000 := by
  -- the whole-array test at its one index
  have h0 := congrFun h ValueIdx.ix0
  simp only [Cert.Pre_finite_inputs.fn, Cert.Pre_finite_inputs.fn_part1] at h0
  -- only the last conjunct of the outer conjunction matters
  have h24 := (IntOp.andi_eq_one.1 h0).2
  -- a result of rank 0 has one index
  haveI : Subsingleton Cert.Pre_finite_inputs.S_.Idx := ⟨fun a b => funext fun d => d.elim0⟩
  -- the reduction by "and" being 1 makes each element 1
  have hi := Host.reduce_andi_all _ _ _ _ _ h24 (ix1 e)
  -- an element is the conjunction of the two compares
  obtain ⟨hge, hlt⟩ := IntOp.andi_eq_one.1 hi
  have hge' := IntOp.cmpi_sge.1 hge
  have hlt' := IntOp.cmpi_slt.1 hlt
  -- the broadcast constants at the index are the constants
  have e0 : (0#32 : BitVec 32).toInt = 0 := by decide
  have e1 : (100000#32 : BitVec 32).toInt = 100000 := by decide
  exact ⟨by simpa [broadcastInDim, constantI, e0] using hge', by simpa [broadcastInDim, constantI, e1] using hlt'⟩

end Cert.Agg.Pre

end
-- ==== Proof.lean ====
/-
  Edge-weighted aggregation of linearly projected node features, as a kernel of two regions against a plain reference.

  The function. For node features x (100000 rows of 64), a weight matrix W (64 by 64) and a bias b (64), node n has the
  projected row h(n, o) = (sum over d of x(n, d) * W(o, d)) + b(o). Each of 1200000 edges e has a source node src e, a
  destination node dst e and a weight w e; its message is the projected row of its source times its weight; and

      out(n, o) = sum over { e | dst e = n } of h(src e, o) * w e.

  The reference computes exactly this: a contraction and a broadcast add for h, a row gather at the source indices, a
  product with the weights, and a scatter-add into zeros at the destination indices (a destination that is no node is
  dropped).

  The kernel's first region computes h block by block (2000 rows at a time) as a matrix product with the transposed W
  plus the bias row. Its second region walks the edges in 3750 blocks of 320 with h and the output resident whole. For a
  block it builds, chunk by chunk over the 100000 nodes, the 0/1 indicator matrix "node = source of edge" and multiplies
  it with the chunk of h: summed over the chunks this gathers the source rows, because exactly one node is the source.
  It scales the gathered rows by the weights, and then, chunk by chunk again, multiplies the TRANSPOSED indicator matrix
  "node = destination of edge" with the messages and adds the product to the chunk of the output: this adds to row n the
  messages of the block's edges whose destination is n. The first block starts from zeros, so after the last block the
  output is the sum over all edges with destination n. Over the extended reals a zero indicator kills its term whatever
  the other factor, an indicator of one leaves it unchanged, and sums may be regrouped freely, so the two sides agree
  entry by entry; the changes of float format in the kernel are the identity there.

  Where the kernel and the reference would differ is a source index that is no node: the indicator row is then all
  zeros and the kernel's message is zero, while the reference's gather wraps a negative index and clamps a large one.
  The precondition therefore says that every source index lies in [0, 100000) (beside the finiteness of the float
  inputs, which this proof does not need). A destination index outside the nodes is dropped by both sides.

  The frames of the two kernels are the generated ones; the reference's frame is its generated run with the result
  dropped; the idealization rewrote nothing. The kernel's run with its result named, the two regions' values and the
  reference's value are in the modules imported below.
-/
import proofs.«406246_j3513283248909_1_alg».proof.Defs
import proofs.«406246_j3513283248909_1_alg».proof.Proof.Gen.Kernel
import proofs.«406246_j3513283248909_1_alg».proof.Proof.Gen.Kernel.Skeleton
import proofs.«406246_j3513283248909_1_alg».proof.Proof.Gen.Kernel.Loops
import proofs.«406246_j3513283248909_1_alg».proof.Proof.Gen.Kernel.Launch
import proofs.«406246_j3513283248909_1_alg».proof.Proof.Gen.Kernel.Points
import proofs.«406246_j3513283248909_1_alg».proof.Proof.Gen.Kernel.Frame
import proofs.«406246_j3513283248909_1_alg».proof.Proof.Gen.KernelIdeal
import proofs.«406246_j3513283248909_1_alg».proof.Proof.Gen.KernelIdeal.Skeleton
import proofs.«406246_j3513283248909_1_alg».proof.Proof.Gen.KernelIdeal.Loops
import proofs.«406246_j3513283248909_1_alg».proof.Proof.Gen.KernelIdeal.Launch
import proofs.«406246_j3513283248909_1_alg».proof.Proof.Gen.KernelIdeal.Points
import proofs.«406246_j3513283248909_1_alg».proof.Proof.Gen.KernelIdeal.Frame
import proofs.«406246_j3513283248909_1_alg».proof.Proof.Gen.ReferenceIdeal
import proofs.«406246_j3513283248909_1_alg».proof.Proof.Gen.Pre_finite_inputs
import proofs.«406246_j3513283248909_1_alg».proof.Proof.Gen.ReferenceIdeal.Run
import proofs.«406246_j3513283248909_1_alg».proof.Proof.Gen.ReferenceIdeal.Read
import proofs.«406246_j3513283248909_1_alg».proof.Proof.KernelRun
import proofs.«406246_j3513283248909_1_alg».proof.Proof.Glue
import proofs.«406246_j3513283248909_1_alg».proof.Proof.RefValue
import proofs.«406246_j3513283248909_1_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the six arguments, with every source index a node, the idealized kernel and the
    idealized reference both end with the aggregate of the arguments in their result arrays. -/
theorem algebraic : Cert.algebraic_KernelIdeal_ReferenceIdeal := by
  intro m ρ m' ρ' hpre hagree
  have hsrc : ∀ (c : Dev Cert.KernelIdeal.nD) (e : Fin 1200000),
      0 ≤ (((m ((c.tc : Thread Cert.KernelIdeal.nD Cert.KernelIdeal.τ).loc Cert.KernelIdeal.main_arg1)) : Cert.Agg.SE.Idx → BitVec 32) (ix1 e)).toInt
        ∧ (((m ((c.tc : Thread Cert.KernelIdeal.nD Cert.KernelIdeal.τ).loc Cert.KernelIdeal.main_arg1)) : Cert.Agg.SE.Idx → BitVec 32) (ix1 e)).toInt < 100000 :=
    fun c e => Cert.Agg.Pre.src_range (F := Ideal) _ _ _ _ _ _ (hpre c) e
  refine ⟨fun c => Cert.Agg.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Glue.kernel_value m ρ c (hsrc c)), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, (hagree c).1, (hagree c).2.1, (hagree c).2.2.1, (hagree c).2.2.2.1,
      (hagree c).2.2.2.2.1, (hagree c).2.2.2.2.2]
    exact Cert.Agg.Ref.ref_eq _ _ _ _ _ _ (hsrc c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
